-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S_ : Shape := ⟨0, ![]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 28
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x3072, .f32⟩
  | .hbm, ⟨15, _⟩ => ⟨S1024x3072, .bf16⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S3072, .f32⟩
  | .hbm, ⟨20, _⟩ => ⟨S1x3072, .f32⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S4x2048x1024, .bf16⟩
  | .hbm, ⟨25, _⟩ => ⟨S4x2048x1024, .bf16⟩
  | .hbm, ⟨26, _⟩ => ⟨S4x2048x1024, .bf16⟩
  | .hbm, ⟨27, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1024x1, .f32⟩
  | .local _ .vmem, ⟨19, _⟩ => ⟨S1024x1, .f32⟩
  | .local _ .vmem, ⟨20, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v41 : BitVec 1 := Scalar.cmpi .eq arg2 c3_i32
  let v42 : BitVec 32 := Scalar.extui v41
  let c0_i32_26 : BitVec 32 := 0#32
  let v43 : BitVec 1 := Scalar.cmpi .ne v42 c0_i32_26
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bcast_S_S1024x1024 : S_.BroadcastsInDim S1024x1024 (![] : Fin 0 → Fin S1024x1024.rank)
  concatenates_S1024x1024_S1024x1024_S1024x1024_S1024x3072_d1 : Shape.Concatenates [S1024x1024, S1024x1024, S1024x1024] S1024x3072 1
  bitsLt_bf16_f32 : FTy.bits .bf16 < FTy.bits .f32
  bcast_S_S1024 : S_.BroadcastsInDim S1024 (![] : Fin 0 → Fin S1024.rank)
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x3072_S512x3072_1_0_0_1_n_n_wf : DotDims.WF S512x1024 S1024x3072 S512x3072 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Reg0.lean ====
/-
  Region 0, the projection kernel, at the buffer contents `V` the region is entered with.

  At grid point `t` (16 points) the body reads rows `512·t … 512·t+511` of the row matrix (window 0), the whole
  concatenated weight matrix (window 1) and the whole concatenated bias row (window 2), forms
  `y = x·W + b` of width 3072 and stores its three column thirds into the blocks of the three outputs (windows 3, 4, 5),
  each written back at every point. Nothing is kept between points.
-/
import proofs.«402570_j23785528885493_3_alg».proof.Proof.Gen.Kernel.Launch
import proofs.«402570_j23785528885493_3_alg».proof.Proof.Gen.Kernel.Skeleton
import proofs.«402570_j23785528885493_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is its whole buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-! ## What the body leaves in each output window's buffer: its one store -/

def out0_3 (x0 : Vec F S512x1024 .f32) (x1 : Vec F S1024x3072 .bf16) (x2 : Vec F S1x3072 .f32) : Vec F S512x1024 .bf16 :=
  View.canon [⟨rX, k0_pay2 (View.ld x0 rX) (View.ld x1 rW) (View.ld x2 rB)⟩]
def out0_4 (x0 : Vec F S512x1024 .f32) (x1 : Vec F S1024x3072 .bf16) (x2 : Vec F S1x3072 .f32) : Vec F S512x1024 .bf16 :=
  View.canon [⟨rX, k0_pay3 (View.ld x0 rX) (View.ld x1 rW) (View.ld x2 rB)⟩]
def out0_5 (x0 : Vec F S512x1024 .f32) (x1 : Vec F S1024x3072 .bf16) (x2 : Vec F S1x3072 .f32) : Vec F S512x1024 .bf16 :=
  View.canon [⟨rX, k0_pay4 (View.ld x0 rX) (View.ld x1 rW) (View.ld x2 rB)⟩]

/-- The one store is the whole buffer, so it covers it. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- The body on whole staging memrefs, the inputs' at contents `x0 x1 x2` and the outputs' at anything, runs to the
    continuation holding the inputs' as they were and each output's at its store over the inputs'. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- Region 0's proof data on core `c`: the arrays as the region finds them; after the body at point `t` each input's
    buffer at its block and each output's at its store over the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Pure.lean ====
/-
  The flash kernel's arithmetic at one grid point, as pure functions of what the body loads.

  The body holds three scratch buffers across the four key tiles of a query block: the running row maximum `m` (1024×1), the
  running denominator `l` (1024×1) and the running numerator `a` (1024×1024). With the query block `q` (1×1024×1024), the key
  tile `k` and the value tile `v` (1×512×1024 each):
    m' = max m (rowmax (q·kᵀ)),  α = exp (m - m'),  p = exp (q·kᵀ - m'),
    l' = α·l + rowsum p,          a' = α·a + p·v,
  at the first tile from m = -∞, l = 0, a = 0, and after the last tile the output block is a' / l'.
-/
import proofs.«402570_j23785528885493_3_alg».proof.Proof.Gen.Kernel.Skeleton

noncomputable section

namespace Cert.Kernel.Hand

open Cert.Kernel Cert.Kernel.Gen
open Idealize.ShloMosaic

variable {F : FTy → Type} [FloatOps F]

/-- The scratch contents the first tile starts from: `-∞`, `0`, `0`. -/
def initM : Vec F S1024x1 .f32 := k1_pay4 (F := F)
def initL : Vec F S1024x1 .f32 := k1_pay5 (F := F)
def initA : Vec F S1024x1024 .f32 := k1_pay6 (F := F)

/-- The new running maximum. -/
def stepM (q : Vec F S1x1024x1024 .bf16) (k : Vec F S1x512x1024 .bf16) (m : Vec F S1024x1 .f32) : Vec F S1024x1 .f32 :=
  k1_pay2 (k1_pay9 q k m)

/-- The new running denominator. -/
def stepL (q : Vec F S1x1024x1024 .bf16) (k : Vec F S1x512x1024 .bf16) (m l : Vec F S1024x1 .f32) : Vec F S1024x1 .f32 :=
  k1_pay12 q k m m l

/-- The new running numerator. -/
def stepA (q : Vec F S1x1024x1024 .bf16) (k v : Vec F S1x512x1024 .bf16) (m : Vec F S1024x1 .f32) (a : Vec F S1024x1024 .f32) :
    Vec F S1024x1024 .f32 :=
  k1_pay1 (k1_pay7 v) (k1_pay11 q k m) a (k1_pay13 q k m m)

/-- The output block after the last tile: numerator over denominator. -/
def outO (a : Vec F S1024x1024 .f32) (l : Vec F S1024x1 .f32) : Vec F S1x1024x1024 .f32 := k1_pay3 a l

/-- The three scratch contents. -/
abbrev Sc (F : FTy → Type) : Type := Vec F S1024x1 .f32 × Vec F S1024x1 .f32 × Vec F S1024x1024 .f32

/-- One tile: the scratch after it from the scratch before it. -/
def stepSc (q : Vec F S1x1024x1024 .bf16) (k v : Vec F S1x512x1024 .bf16) (sc : Sc F) : Sc F :=
  (stepM q k sc.1, stepL q k sc.1 sc.2.1, stepA q k v sc.1 sc.2.2)

/-- The scratch the first tile starts from. -/
def initSc : Sc F := (initM, initL, initA)

end Cert.Kernel.Hand

end
-- ==== Proof.K.R1RunA.lean ====
/-
  Region 1, the flash-attention kernel: what the runs of its body share (the two branch conditions decided over the grid,
  where the windows are idle, the memrefs the body is called with), and the body's run at the FIRST key/value tile of a
  query block.
-/
import proofs.«402570_j23785528885493_3_alg».proof.Proof.Gen.Kernel.Launch
import proofs.«402570_j23785528885493_3_alg».proof.Proof.Gen.Kernel.Skeleton
import proofs.«402570_j23785528885493_3_alg».proof.Proof.Gen.Kernel.Points
import proofs.«402570_j23785528885493_3_alg».proof.Proof.K.R1Pure
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid

The grid is 4 × 2 × 4: the last coordinate is the key/value tile, so a point's position `t` has tile `t % 4`. -/

/-- The first conditional (reset the running maximum, denominator and numerator): taken at the first tile of a query block. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (divide and store the output block): taken at the last tile of a query block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first tile the output window is idle (nothing stored into it) and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the middle tiles likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last tile the output window is live: the body stores the whole block. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The body at the first tile of a query block -/

set_option maxHeartbeats 4000000 in
/-- FIRST TILE (first conditional taken, second not). The three scratch buffers are handed in at anything: the body
    stores `-∞`, `0`, `0` into them before it reads them. The output window's buffer is handed back untouched. The
    pieces each scratch buffer ends with are what the run finds. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunB.lean ====
/-
  Region 1, the flash-attention kernel: the body's run at a MIDDLE key/value tile of a query block.
-/
import proofs.«402570_j23785528885493_3_alg».proof.Proof.Gen.Kernel.Launch
import proofs.«402570_j23785528885493_3_alg».proof.Proof.Gen.Kernel.Skeleton
import proofs.«402570_j23785528885493_3_alg».proof.Proof.Gen.Kernel.Points
import proofs.«402570_j23785528885493_3_alg».proof.Proof.K.R1Pure
import proofs.«402570_j23785528885493_3_alg».proof.Proof.K.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a middle tile of a query block -/

set_option maxHeartbeats 4000000 in
/-- MIDDLE TILE (neither conditional taken). The three scratch buffers are handed in at what the tile before left,
    `xs0 xs1 xs2`; each is stored whole. The output window's buffer is handed back untouched. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunC.lean ====
/-
  Region 1, the flash-attention kernel: the body's run at the LAST key/value tile of a query block.
-/
import proofs.«402570_j23785528885493_3_alg».proof.Proof.Gen.Kernel.Launch
import proofs.«402570_j23785528885493_3_alg».proof.Proof.Gen.Kernel.Skeleton
import proofs.«402570_j23785528885493_3_alg».proof.Proof.Gen.Kernel.Points
import proofs.«402570_j23785528885493_3_alg».proof.Proof.K.R1Pure
import proofs.«402570_j23785528885493_3_alg».proof.Proof.K.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last tile of a query block -/

set_option maxHeartbeats 4000000 in
/-- LAST TILE (second conditional taken, first not). The three scratch buffers are handed in at what the tile before
    left; each is stored whole; the output window's buffer, handed in at anything, is stored whole with the numerator
    over the denominator. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.Reg1.lean ====
/-
  Region 1, the flash-attention kernel, at the buffer contents `V` the region is entered with.

  The grid is 4 × 2 × 4 (32 points): for each of the 8 query blocks (1×1024×1024) the body runs over the 4 key/value tiles
  (1×512×1024 each). It keeps three scratch buffers across the tiles of a query block — the running row maximum (1024×1),
  the running denominator (1024×1) and the running numerator (1024×1024): at the first tile it resets them to `-∞`, `0`,
  `0`, at every tile it folds the tile in, and at the last tile it stores numerator / denominator into the output window
  (1×1024×1024), which is idle and not written back at the other tiles. So there are three cases of the body (first,
  middle, last tile), each run once on symbolic memrefs; what the four buffers hold after each point is defined by
  recursion on the point, and the region invariant carries the scratch buffers at the previous point's contents.
-/
import proofs.«402570_j23785528885493_3_alg».proof.Proof.Gen.Kernel.Launch
import proofs.«402570_j23785528885493_3_alg».proof.Proof.Gen.Kernel.Skeleton
import proofs.«402570_j23785528885493_3_alg».proof.Proof.Gen.Kernel.Points
import proofs.«402570_j23785528885493_3_alg».proof.Proof.K.R1Pure
import proofs.«402570_j23785528885493_3_alg».proof.Proof.K.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved (the query block stays for the four tiles of its row). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant the launch hands the region, with the three scratch buffers named -/

/-- The core's scoped buffers that are neither a staging buffer of this region nor one of its three scratch buffers
    (the staging buffers of the region before), each whole at some contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- Separating conjunction reassociated, as an equation. -/
theorem sep_assoc_eq1 (P Q R : sProp 𝕄) : iprop((P ∗ Q) ∗ R) = iprop(P ∗ Q ∗ R) :=
  BI.Entails.antisymm BI.sep_assoc BI.sep_assoc'

/-- The launch's invariant: the untouched rest, the three scratch buffers each owned at some contents, and the generator
    register at some state. -/
theorem PhiA1_eq (c : Dev nD) :
    (Pipeline.ΦA spec1 c : sProp 𝕄)
      = iprop(iprop(rest1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA rest1; rw [scopedRest1_eq]; simp only [scM1_0, scM1_1, scM1_2, owns_whole, sep_assoc_eq1]; try rfl

/-! ## What each case leaves in the scratch buffers and in the output window's buffer

Each case's pieces for a scratch buffer end with a store of the whole buffer, so they cover it, and what the buffer holds
afterwards is the pieces read back whatever it held before. -/

/-- At the first tile nothing is stored into the output window's buffer (it is idle there and not written back): a
    placeholder nothing consults. -/
def out1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- The pieces the first tile stores into the running maximum cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What the first tile leaves in the running maximum. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- The pieces the first tile stores into the running denominator cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What the first tile leaves in the running denominator. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- The pieces the first tile stores into the running numerator cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What the first tile leaves in the running numerator. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At a middle tile nothing is stored into the output window's buffer (it is idle there and not written back): a
    placeholder nothing consults. -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- The pieces a middle tile stores into the running maximum cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What a middle tile leaves in the running maximum. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- The pieces a middle tile stores into the running denominator cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What a middle tile leaves in the running denominator. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- The pieces a middle tile stores into the running numerator cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What a middle tile leaves in the running numerator. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- At the last tile the output window's buffer is stored whole. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What the last tile leaves in the output window's buffer: the numerator over the denominator. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- The pieces the last tile stores into the running maximum cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What the last tile leaves in the running maximum. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- The pieces the last tile stores into the running denominator cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What the last tile leaves in the running denominator. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- The pieces the last tile stores into the running numerator cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What the last tile leaves in the running numerator. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the buffers hold after each point -/

/-- THE ACCUMULATION. What the output window's buffer and the three scratch buffers hold after the body at position `n`:
    the case the position's tile selects, run at the point's memrefs and input blocks, the scratch buffers at what the
    position before left in them (at the first tile of a query block nothing of the past is read). -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first tile. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle tile: over what the position before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last tile: over what the position before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- The region invariant before position `n`: before the first point what the launch hands over (every scratch buffer at
    anything); afterwards the untouched rest, the three scratch buffers at what the position before left in them, and
    the generator register at some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- Region 1's proof data on core `c`: the arrays as the region finds them; after the body at point `t` each input's
    buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the position's tile says which case the point is in; the
    invariant hands the body the three scratch buffers at what the position before left (at anything at the very first
    point) and takes them back at this point's contents, each case's pieces covering its buffer; at the first and middle
    tiles the output window's buffer is handed back untouched, at the last tile at the stored block; nothing is owed
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

/-- After the last point the invariant gives it back. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Cert.Kernel.Hand

end
-- ==== Proof.KI.Reg0.lean ====
/-
  Region 0, the projection kernel, at the buffer contents `V` the region is entered with.

  At grid point `t` (16 points) the body reads rows `512·t … 512·t+511` of the row matrix (window 0), the whole
  concatenated weight matrix (window 1) and the whole concatenated bias row (window 2), forms
  `y = x·W + b` of width 3072 and stores its three column thirds into the blocks of the three outputs (windows 3, 4, 5),
  each written back at every point. Nothing is kept between points.
-/
import proofs.«402570_j23785528885493_3_alg».proof.Proof.Gen.KernelIdeal.Launch
import proofs.«402570_j23785528885493_3_alg».proof.Proof.Gen.KernelIdeal.Skeleton
import proofs.«402570_j23785528885493_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is its whole buffer -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0

/-! ## What the body leaves in each output window's buffer: its one store -/

def out0_3 (x0 : Vec F S512x1024 .f32) (x1 : Vec F S1024x3072 .bf16) (x2 : Vec F S1x3072 .f32) : Vec F S512x1024 .bf16 :=
  View.canon [⟨rX, k0_pay2 (View.ld x0 rX) (View.ld x1 rW) (View.ld x2 rB)⟩]
def out0_4 (x0 : Vec F S512x1024 .f32) (x1 : Vec F S1024x3072 .bf16) (x2 : Vec F S1x3072 .f32) : Vec F S512x1024 .bf16 :=
  View.canon [⟨rX, k0_pay3 (View.ld x0 rX) (View.ld x1 rW) (View.ld x2 rB)⟩]
def out0_5 (x0 : Vec F S512x1024 .f32) (x1 : Vec F S1024x3072 .bf16) (x2 : Vec F S1x3072 .f32) : Vec F S512x1024 .bf16 :=
  View.canon [⟨rX, k0_pay4 (View.ld x0 rX) (View.ld x1 rW) (View.ld x2 rB)⟩]

/-- The one store is the whole buffer, so it covers it. -/
theorem cover0 (p0 : Vec F S512x1024 .bf16) (y : S512x1024.Idx) :
    ∃ pc ∈ ([⟨rX, p0⟩] : List (View.Piece (Elt F) S512x1024 .bf16)), y ∈ pc.1.set :=
  View.cover_of_tiled [⟨rX, p0⟩] S512x1024.size (by rfl) y

/-! ## The body's triple -/

set_option maxHeartbeats 4000000 in
/-- The body on whole staging memrefs, the inputs' at contents `x0 x1 x2` and the outputs' at anything, runs to the
    continuation holding the inputs' as they were and each output's at its store over the inputs'. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_proj_kernel i arg1 harg1 arg2 harg2 arg3 harg3 arg4 harg4 arg5 harg5 arg6 harg6) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- Region 0's proof data on core `c`: the arrays as the region finds them; after the body at point `t` each input's
    buffer at its block and each output's at its store over the input blocks; the scoped rest and the generator register
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Pure.lean ====
/-
  The flash kernel's arithmetic at one grid point, as pure functions of what the body loads.

  The body holds three scratch buffers across the four key tiles of a query block: the running row maximum `m` (1024×1), the
  running denominator `l` (1024×1) and the running numerator `a` (1024×1024). With the query block `q` (1×1024×1024), the key
  tile `k` and the value tile `v` (1×512×1024 each):
    m' = max m (rowmax (q·kᵀ)),  α = exp (m - m'),  p = exp (q·kᵀ - m'),
    l' = α·l + rowsum p,          a' = α·a + p·v,
  at the first tile from m = -∞, l = 0, a = 0, and after the last tile the output block is a' / l'.
-/
import proofs.«402570_j23785528885493_3_alg».proof.Proof.Gen.KernelIdeal.Skeleton

noncomputable section

namespace Cert.KernelIdeal.Hand

open Cert.KernelIdeal Cert.KernelIdeal.Gen
open Idealize.ShloMosaic

variable {F : FTy → Type} [FloatOps F]

/-- The scratch contents the first tile starts from: `-∞`, `0`, `0`. -/
def initM : Vec F S1024x1 .f32 := k1_pay4 (F := F)
def initL : Vec F S1024x1 .f32 := k1_pay5 (F := F)
def initA : Vec F S1024x1024 .f32 := k1_pay6 (F := F)

/-- The new running maximum. -/
def stepM (q : Vec F S1x1024x1024 .bf16) (k : Vec F S1x512x1024 .bf16) (m : Vec F S1024x1 .f32) : Vec F S1024x1 .f32 :=
  k1_pay2 (k1_pay9 q k m)

/-- The new running denominator. -/
def stepL (q : Vec F S1x1024x1024 .bf16) (k : Vec F S1x512x1024 .bf16) (m l : Vec F S1024x1 .f32) : Vec F S1024x1 .f32 :=
  k1_pay12 q k m m l

/-- The new running numerator. -/
def stepA (q : Vec F S1x1024x1024 .bf16) (k v : Vec F S1x512x1024 .bf16) (m : Vec F S1024x1 .f32) (a : Vec F S1024x1024 .f32) :
    Vec F S1024x1024 .f32 :=
  k1_pay1 (k1_pay7 v) (k1_pay11 q k m) a (k1_pay13 q k m m)

/-- The output block after the last tile: numerator over denominator. -/
def outO (a : Vec F S1024x1024 .f32) (l : Vec F S1024x1 .f32) : Vec F S1x1024x1024 .f32 := k1_pay3 a l

/-- The three scratch contents. -/
abbrev Sc (F : FTy → Type) : Type := Vec F S1024x1 .f32 × Vec F S1024x1 .f32 × Vec F S1024x1024 .f32

/-- One tile: the scratch after it from the scratch before it. -/
def stepSc (q : Vec F S1x1024x1024 .bf16) (k v : Vec F S1x512x1024 .bf16) (sc : Sc F) : Sc F :=
  (stepM q k sc.1, stepL q k sc.1 sc.2.1, stepA q k v sc.1 sc.2.2)

/-- The scratch the first tile starts from. -/
def initSc : Sc F := (initM, initL, initA)

end Cert.KernelIdeal.Hand

end
-- ==== Proof.KI.R1RunA.lean ====
/-
  Region 1, the flash-attention kernel: what the runs of its body share (the two branch conditions decided over the grid,
  where the windows are idle, the memrefs the body is called with), and the body's run at the FIRST key/value tile of a
  query block.
-/
import proofs.«402570_j23785528885493_3_alg».proof.Proof.Gen.KernelIdeal.Launch
import proofs.«402570_j23785528885493_3_alg».proof.Proof.Gen.KernelIdeal.Skeleton
import proofs.«402570_j23785528885493_3_alg».proof.Proof.Gen.KernelIdeal.Points
import proofs.«402570_j23785528885493_3_alg».proof.Proof.KI.R1Pure
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, decided over the grid

The grid is 4 × 2 × 4: the last coordinate is the key/value tile, so a point's position `t` has tile `t % 4`. -/

/-- The first conditional (reset the running maximum, denominator and numerator): taken at the first tile of a query block. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional (divide and store the output block): taken at the last tile of a query block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first tile the output window is idle (nothing stored into it) and not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At the middle tiles likewise. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last tile the output window is live: the body stores the whole block. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1x1024x1024 .f32 := (Memref.whole cc1_stg3_0 : Memref sig .tc .vmem S1x1024x1024 .f32).view
abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three scratch operands: the running maximum, the running denominator, the running numerator. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view

/-! ## The body at the first tile of a query block -/

set_option maxHeartbeats 4000000 in
/-- FIRST TILE (first conditional taken, second not). The three scratch buffers are handed in at anything: the body
    stores `-∞`, `0`, `0` into them before it reads them. The output window's buffer is handed back untouched. The
    pieces each scratch buffer ends with are what the run finds. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunB.lean ====
/-
  Region 1, the flash-attention kernel: the body's run at a MIDDLE key/value tile of a query block.
-/
import proofs.«402570_j23785528885493_3_alg».proof.Proof.Gen.KernelIdeal.Launch
import proofs.«402570_j23785528885493_3_alg».proof.Proof.Gen.KernelIdeal.Skeleton
import proofs.«402570_j23785528885493_3_alg».proof.Proof.Gen.KernelIdeal.Points
import proofs.«402570_j23785528885493_3_alg».proof.Proof.KI.R1Pure
import proofs.«402570_j23785528885493_3_alg».proof.Proof.KI.R1RunA
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a middle tile of a query block -/

set_option maxHeartbeats 4000000 in
/-- MIDDLE TILE (neither conditional taken). The three scratch buffers are handed in at what the tile before left,
    `xs0 xs1 xs2`; each is stored whole. The output window's buffer is handed back untouched. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨[], ?_, ?_, ?_, fun xi3 E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunC.lean ====
/-
  Region 1, the flash-attention kernel: the body's run at the LAST key/value tile of a query block.
-/
import proofs.«402570_j23785528885493_3_alg».proof.Proof.Gen.KernelIdeal.Launch
import proofs.«402570_j23785528885493_3_alg».proof.Proof.Gen.KernelIdeal.Skeleton
import proofs.«402570_j23785528885493_3_alg».proof.Proof.Gen.KernelIdeal.Points
import proofs.«402570_j23785528885493_3_alg».proof.Proof.KI.R1Pure
import proofs.«402570_j23785528885493_3_alg».proof.Proof.KI.R1RunB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at the last tile of a query block -/

set_option maxHeartbeats 4000000 in
/-- LAST TILE (second conditional taken, first not). The three scratch buffers are handed in at what the tile before
    left; each is stored whole; the output window's buffer, handed in at anything, is stored whole with the numerator
    over the denominator. -/
noncomputable def kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16)
    (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)),
      { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.Reg1.lean ====
/-
  Region 1, the flash-attention kernel, at the buffer contents `V` the region is entered with.

  The grid is 4 × 2 × 4 (32 points): for each of the 8 query blocks (1×1024×1024) the body runs over the 4 key/value tiles
  (1×512×1024 each). It keeps three scratch buffers across the tiles of a query block — the running row maximum (1024×1),
  the running denominator (1024×1) and the running numerator (1024×1024): at the first tile it resets them to `-∞`, `0`,
  `0`, at every tile it folds the tile in, and at the last tile it stores numerator / denominator into the output window
  (1×1024×1024), which is idle and not written back at the other tiles. So there are three cases of the body (first,
  middle, last tile), each run once on symbolic memrefs; what the four buffers hold after each point is defined by
  recursion on the point, and the region invariant carries the scratch buffers at the previous point's contents.
-/
import proofs.«402570_j23785528885493_3_alg».proof.Proof.Gen.KernelIdeal.Launch
import proofs.«402570_j23785528885493_3_alg».proof.Proof.Gen.KernelIdeal.Skeleton
import proofs.«402570_j23785528885493_3_alg».proof.Proof.Gen.KernelIdeal.Points
import proofs.«402570_j23785528885493_3_alg».proof.Proof.KI.R1Pure
import proofs.«402570_j23785528885493_3_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved (the query block stays for the four tiles of its row). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The invariant the launch hands the region, with the three scratch buffers named -/

/-- The core's scoped buffers that are neither a staging buffer of this region nor one of its three scratch buffers
    (the staging buffers of the region before), each whole at some contents: the body never touches them. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- Separating conjunction reassociated, as an equation. -/
theorem sep_assoc_eq1 (P Q R : sProp 𝕄) : iprop((P ∗ Q) ∗ R) = iprop(P ∗ Q ∗ R) :=
  BI.Entails.antisymm BI.sep_assoc BI.sep_assoc'

/-- The launch's invariant: the untouched rest, the three scratch buffers each owned at some contents, and the generator
    register at some state. -/
theorem PhiA1_eq (c : Dev nD) :
    (Pipeline.ΦA spec1 c : sProp 𝕄)
      = iprop(iprop(rest1 (F := F) c ∗ (∃ d, owns (c : Thread nD τ) scM1_0 fullShare d) ∗ (∃ d, owns (c : Thread nD τ) scM1_1 fullShare d)
          ∗ (∃ d, owns (c : Thread nD τ) scM1_2 fullShare d)) ∗ (∃ r, prngReg c r)) := by
  unfold Pipeline.ΦA rest1; rw [scopedRest1_eq]; simp only [scM1_0, scM1_1, scM1_2, owns_whole, sep_assoc_eq1]; try rfl

/-! ## What each case leaves in the scratch buffers and in the output window's buffer

Each case's pieces for a scratch buffer end with a store of the whole buffer, so they cover it, and what the buffer holds
afterwards is the pieces read back whatever it held before. -/

/-- At the first tile nothing is stored into the output window's buffer (it is idle there and not written back): a
    placeholder nothing consults. -/
def out1_A_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1x1024x1024 .f32 :=
  VO1_3.read (Elt F) (VO1_3.writes (Elt F) VO1_3.junk (kernelRun1_A c i arg3 harg3 arg4 harg4 arg5 harg5 arg6 harg6 arg7 harg7 arg8 harg8 arg9 harg9 hc0 hc1 x0 x1 x2).1)

/-- The pieces the first tile stores into the running maximum cover it. -/
theorem scover1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.1, y ∈ pc.1.set :=
  View.cover_of_tiledL (kernelRun1_A c i arg3 harg3 arg4 harg4 arg5 harg5 arg6 harg6 arg7 harg7 arg8 harg8 arg9 harg9 hc0 hc1 x0 x1 x2).2.1 S1024x1.size (by sl_kernel_rfl) y

/-- What the first tile leaves in the running maximum. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 x0 x1 x2).2.1)

/-- The pieces the first tile stores into the running denominator cover it. -/
theorem scover1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 x0 x1 x2).2.2.1, y ∈ pc.1.set :=
  View.cover_of_tiledL (kernelRun1_A c i arg3 harg3 arg4 harg4 arg5 harg5 arg6 harg6 arg7 harg7 arg8 harg8 arg9 harg9 hc0 hc1 x0 x1 x2).2.2.1 S1024x1.size (by sl_kernel_rfl) y

/-- What the first tile leaves in the running denominator. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 x0 x1 x2).2.2.1)

/-- The pieces the first tile stores into the running numerator cover it. -/
theorem scover1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 x0 x1 x2).2.2.2.1, y ∈ pc.1.set :=
  View.cover_of_tiledL (kernelRun1_A c i arg3 harg3 arg4 harg4 arg5 harg5 arg6 harg6 arg7 harg7 arg8 harg8 arg9 harg9 hc0 hc1 x0 x1 x2).2.2.2.1 S1024x1024.size (by sl_kernel_rfl) y

/-- What the first tile leaves in the running numerator. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 x0 x1 x2).2.2.2.1)

/-- At a middle tile nothing is stored into the output window's buffer (it is idle there and not written back): a
    placeholder nothing consults. -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 x0 x1 x2 xs0 xs1 xs2).1)

/-- The pieces a middle tile stores into the running maximum cover it. -/
theorem scover1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.1 S1024x1.size (by sl_kernel_rfl) y

/-- What a middle tile leaves in the running maximum. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 x0 x1 x2 xs0 xs1 xs2).2.1)

/-- The pieces a middle tile stores into the running denominator cover it. -/
theorem scover1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.1 S1024x1.size (by sl_kernel_rfl) y

/-- What a middle tile leaves in the running denominator. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 x0 x1 x2 xs0 xs1 xs2).2.2.1)

/-- The pieces a middle tile stores into the running numerator cover it. -/
theorem scover1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 x0 x1 x2 xs0 xs1 xs2).2.2.2.1 S1024x1024.size (by sl_kernel_rfl) y

/-- What a middle tile leaves in the running numerator. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 x0 x1 x2 xs0 xs1 xs2).2.2.2.1)

/-- At the last tile the output window's buffer is stored whole. -/
theorem cover1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_C c i arg3 harg3 arg4 harg4 arg5 harg5 arg6 harg6 arg7 harg7 arg8 harg8 arg9 harg9 hc0 hc1 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 x0 x1 x2 xs0 xs1 xs2).1 S1x1024x1024.size (by sl_kernel_rfl) y

/-- What the last tile leaves in the output window's buffer: the numerator over the denominator. -/
def out1_C_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_C c i arg3 harg3 arg4 harg4 arg5 harg5 arg6 harg6 arg7 harg7 arg8 harg8 arg9 harg9 hc0 hc1 x0 x1 x2 xs0 xs1 xs2).1)

/-- The pieces the last tile stores into the running maximum cover it. -/
theorem scover1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.1 S1024x1.size (by sl_kernel_rfl) y

/-- What the last tile leaves in the running maximum. -/
def sout1_C_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_C c i arg3 harg3 arg4 harg4 arg5 harg5 arg6 harg6 arg7 harg7 arg8 harg8 arg9 harg9 hc0 hc1 x0 x1 x2 xs0 xs1 xs2).2.1)

/-- The pieces the last tile stores into the running denominator cover it. -/
theorem scover1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_C c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.1 S1024x1.size (by sl_kernel_rfl) y

/-- What the last tile leaves in the running denominator. -/
def sout1_C_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_C c i arg3 harg3 arg4 harg4 arg5 harg5 arg6 harg6 arg7 harg7 arg8 harg8 arg9 harg9 hc0 hc1 x0 x1 x2 xs0 xs1 xs2).2.2.1)

/-- The pieces the last tile stores into the running numerator cover it. -/
theorem scover1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun1_C c i arg3 harg3 arg4 harg4 arg5 harg5 arg6 harg6 arg7 harg7 arg8 harg8 arg9 harg9 hc0 hc1 x0 x1 x2 xs0 xs1 xs2).2.2.2.1 S1024x1024.size (by sl_kernel_rfl) y

/-- What the last tile leaves in the running numerator. -/
def sout1_C_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_C c i arg3 harg3 arg4 harg4 arg5 harg5 arg6 harg6 arg7 harg7 arg8 harg8 arg9 harg9 hc0 hc1 x0 x1 x2 xs0 xs1 xs2).2.2.2.1)

/-! ## What the buffers hold after each point -/

/-- THE ACCUMULATION. What the output window's buffer and the three scratch buffers hold after the body at position `n`:
    the case the position's tile selects, run at the point's memrefs and input blocks, the scratch buffers at what the
    position before left in them (at the first tile of a query block nothing of the past is read). -/
def outsAt1 (c : Dev nD) : (n : ℕ) → n < cfg1.N → Vec F S1x1024x1024 .f32 × Vec F S1024x1 .f32 × Vec F S1024x1 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

/-- `outsAt1` at a first tile. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a middle tile: over what the position before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last tile: over what the position before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant point by point -/

/-- The region invariant before position `n`: before the first point what the launch hands over (every scratch buffer at
    anything); afterwards the untouched rest, the three scratch buffers at what the position before left in them, and
    the generator register at some state. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- Region 1's proof data on core `c`: the arrays as the region finds them; after the body at point `t` each input's
    buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the position's tile says which case the point is in; the
    invariant hands the body the three scratch buffers at what the position before left (at anything at the very first
    point) and takes them back at this point's contents, each case's pieces covering its buffer; at the first and middle
    tiles the output window's buffer is handed back untouched, at the last tile at the stored block; nothing is owed
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz, PhiA1_eq]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨⟨HR, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR HS0 HS1 HS2]
          · isplitl [HR]; · iexact HR
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨HR, HS0, HS1, HS2⟩, Hg⟩
  isplitl [HR HS0 HS1 HS2]
  · isplitl [HR]; · iexact HR
    isplitl [HS0]; · iexists _; iexact HS0
    isplitl [HS1]; · iexists _; iexact HS1
    iexists _; iexact HS2
  iexact Hg

/-- After the last point the invariant gives it back. -/
theorem hout1 (c : Dev nD) : (dat1 V c).Φ (Fin.last cfg1.N) ⊢ (Pipeline.ΦA spec1 c : sProp 𝕄) :=
  Phi_out1 V c _ (by rw [Fin.val_last]; have : cfg1.N = 32 := N_1; omega)

end Cert.KernelIdeal.Hand

end
-- ==== Proof.KI.Val0Pure.lean ====
/-
  The projection kernel's three stores, read at an index on the extended reals: column `o` of output `j` (`j = 0, 1, 2`) in
  row `r` is the inner product of row `r` of the row block with column `1024·j + o` of the concatenated weights, plus entry
  `1024·j + o` of the concatenated bias row.
-/
import proofs.«402570_j23785528885493_3_alg».proof.Proof.KI.Reg0
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- Column `o` of third `j` among the 3072 concatenated columns. -/
def col3 (j : Fin 3) (o : Fin 1024) : Fin 3072 := ⟨j.val * 1024 + o.val, by have := j.isLt; have := o.isLt; omega⟩

/-! ## The product's operand indices

  The product contracts axis 1 of the left operand with axis 0 of the right one: at output index `i` and contraction
  index `q` the left operand is read at `(i 0, q)` and the right one at `(q, i 1)`. -/

theorem lhs_proj_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem lhs_proj_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
theorem rhs_proj_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
theorem rhs_proj_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The product into the zero accumulator, at `(r, c)`: the inner product of the left operand's row `r` with the
    right operand's column `c`. -/
theorem proj_matmul_apply (a : FVec Ideal S512x1024 .bf16) (w : FVec Ideal S1024x3072 .bf16) (r : Fin 512) (c : Fin 3072) :
    matmul dot_S512x1024_S1024x3072_S512x3072_1_0_0_1_n_n none a w (constant (F := Ideal) S512x3072 .f32 0x00000000#32) (ix2 r c)
      = ∑ h : Fin 1024, a (ix2 r h) * w (ix2 h c) := by
  simp only [matmul]
  rw [Ideal.matmul_constant_zero_apply, ← Equiv.sum_comp (ValueIdx.contrEquiv1 dot_S512x1024_S1024x3072_S512x3072_1_0_0_1_n_n 1024 rfl rfl).symm]
  refine Finset.sum_congr rfl fun k _ => ?_
  have hk := ValueIdx.contrEquiv1_symm_val dot_S512x1024_S1024x3072_S512x3072_1_0_0_1_n_n 1024 rfl rfl k
  have el : dot_S512x1024_S1024x3072_S512x3072_1_0_0_1_n_n.lhsIdx (ix2 r c) ((ValueIdx.contrEquiv1 dot_S512x1024_S1024x3072_S512x3072_1_0_0_1_n_n 1024 rfl rfl).symm k) = ix2 r k := funext fun x => Fin.ext (by
    match x with
    | ⟨0, _⟩ => exact lhs_proj_0 _ _
    | ⟨1, _⟩ => exact (lhs_proj_1 _ _).trans hk)
  have er : dot_S512x1024_S1024x3072_S512x3072_1_0_0_1_n_n.rhsIdx (ix2 r c) ((ValueIdx.contrEquiv1 dot_S512x1024_S1024x3072_S512x3072_1_0_0_1_n_n 1024 rfl rfl).symm k) = ix2 k c := funext fun x => Fin.ext (by
    match x with
    | ⟨0, _⟩ => exact (rhs_proj_0 _ _).trans hk
    | ⟨1, _⟩ => exact rhs_proj_1 _ _)
  rw [el, er]

/-! ## The full-width row `y = x·W + b` at an index -/

theorem k0_pay1_apply (x0 : Vec Ideal S512x1024 .f32) (x1 : Vec Ideal S1024x3072 .bf16) (x2 : Vec Ideal S1x3072 .f32) (r : Fin 512) (c : Fin 3072) :
    k0_pay1 x0 x1 x2 (ix2 r c) = (∑ h : Fin 1024, x0 (ix2 r h) * x1 (ix2 h c)) + x2 (ix2 (0 : Fin 1) c) := by
  unfold k0_pay1
  simp only [shapeCast_self]
  rw [addf_apply, proj_matmul_apply, broadcastTo_1b_ab_apply]
  rfl

/-! ## The whole-buffer store and loads drop out -/

theorem offsets_zero : (![0, 0] : Fin 2 → Nat) = fun _ => 0 := funext fun a => by
  match a with
  | ⟨0, _⟩ => rfl
  | ⟨1, _⟩ => rfl

theorem out0_3_eq (x0 : Vec Ideal S512x1024 .f32) (x1 : Vec Ideal S1024x3072 .bf16) (x2 : Vec Ideal S1x3072 .f32) :
    out0_3 x0 x1 x2 = k0_pay2 x0 x1 x2 := by
  unfold out0_3
  rw [View.canon_unit_zero offsets_zero]
  simp only [View.ld_unit_zero (S := S512x1024) offsets_zero, View.ld_unit_zero (S := S1024x3072) offsets_zero, View.ld_unit_zero (S := S1x3072) offsets_zero]
theorem out0_4_eq (x0 : Vec Ideal S512x1024 .f32) (x1 : Vec Ideal S1024x3072 .bf16) (x2 : Vec Ideal S1x3072 .f32) :
    out0_4 x0 x1 x2 = k0_pay3 x0 x1 x2 := by
  unfold out0_4
  rw [View.canon_unit_zero offsets_zero]
  simp only [View.ld_unit_zero (S := S512x1024) offsets_zero, View.ld_unit_zero (S := S1024x3072) offsets_zero, View.ld_unit_zero (S := S1x3072) offsets_zero]
theorem out0_5_eq (x0 : Vec Ideal S512x1024 .f32) (x1 : Vec Ideal S1024x3072 .bf16) (x2 : Vec Ideal S1x3072 .f32) :
    out0_5 x0 x1 x2 = k0_pay4 x0 x1 x2 := by
  unfold out0_5
  rw [View.canon_unit_zero offsets_zero]
  simp only [View.ld_unit_zero (S := S512x1024) offsets_zero, View.ld_unit_zero (S := S1024x3072) offsets_zero, View.ld_unit_zero (S := S1x3072) offsets_zero]

/-! ## The three stores at an index -/

theorem out0_3_apply (x0 : Vec Ideal S512x1024 .f32) (x1 : Vec Ideal S1024x3072 .bf16) (x2 : Vec Ideal S1x3072 .f32) (r : Fin 512) (o : Fin 1024) :
    out0_3 x0 x1 x2 (ix2 r o) = (∑ h : Fin 1024, x0 (ix2 r h) * x1 (ix2 h (col3 0 o))) + x2 (ix2 (0 : Fin 1) (col3 0 o)) := by
  rw [out0_3_eq]
  unfold k0_pay2
  rw [truncf_apply, slice2_axis1_apply 0 _ _ r o (col3 0 o) (by show 0 * 1024 + o.val = 0 + o.val; omega)]
  exact k0_pay1_apply x0 x1 x2 r (col3 0 o)

theorem out0_4_apply (x0 : Vec Ideal S512x1024 .f32) (x1 : Vec Ideal S1024x3072 .bf16) (x2 : Vec Ideal S1x3072 .f32) (r : Fin 512) (o : Fin 1024) :
    out0_4 x0 x1 x2 (ix2 r o) = (∑ h : Fin 1024, x0 (ix2 r h) * x1 (ix2 h (col3 1 o))) + x2 (ix2 (0 : Fin 1) (col3 1 o)) := by
  rw [out0_4_eq]
  unfold k0_pay3
  rw [truncf_apply, slice2_axis1_apply 1024 _ _ r o (col3 1 o) (by show 1 * 1024 + o.val = 1024 + o.val; omega)]
  exact k0_pay1_apply x0 x1 x2 r (col3 1 o)

theorem out0_5_apply (x0 : Vec Ideal S512x1024 .f32) (x1 : Vec Ideal S1024x3072 .bf16) (x2 : Vec Ideal S1x3072 .f32) (r : Fin 512) (o : Fin 1024) :
    out0_5 x0 x1 x2 (ix2 r o) = (∑ h : Fin 1024, x0 (ix2 r h) * x1 (ix2 h (col3 2 o))) + x2 (ix2 (0 : Fin 1) (col3 2 o)) := by
  rw [out0_5_eq]
  unfold k0_pay4
  rw [truncf_apply, slice2_axis1_apply 2048 _ _ r o (col3 2 o) (by show 2 * 1024 + o.val = 2048 + o.val; omega)]
  exact k0_pay1_apply x0 x1 x2 r (col3 2 o)

end Cert.KernelIdeal.Hand

end
-- ==== Proof.KI.Val0Arr.lean ====
/-
  What the projection region leaves in its three output arrays, read at an index on the extended reals: the 16 row blocks
  written back at the 16 grid points cover each array, block `t` holding rows `512·t … 512·t+511`; so row `R`, column `o` of
  output `j` is the inner product of row `R` of the row matrix with column `1024·j + o` of the weights plus that bias entry.
-/
import proofs.«402570_j23785528885493_3_alg».proof.Proof.KI.Val0Pure
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where the blocks sit

  At point `t` the row matrix's block and the three outputs' blocks are block `t` along the rows (rows `512·t … 512·t+511`),
  all columns; the weights and the bias row are fetched whole at every point. -/

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `r` of the row matrix's block at point `t` is row `512·t + r` of the matrix. -/
theorem iblk0_0_apply (c : Dev nD) (t : Fin cfg0.N) (r : Fin 512) (h : Fin 1024) (R : Fin 8192) (hR : R.val = 512 * t.val + r.val) :
    iblk0 V c 0 t (ix2 r h) = (V c main_v0 : S8192x1024.Idx → EReal) (ix2 R h) := by
  obtain ⟨e00, e01, -⟩ := idx_facts0 t
  show (V c main_v0 : S8192x1024.Idx → EReal) (((cfg0.win 0).blk t).view.emb (ix2 r h)) = _
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * h.val = h.val; omega

/-- The weights' block at every point is the whole weight matrix. -/
theorem iblk0_1_apply (c : Dev nD) (t : Fin cfg0.N) (i : S1024x3072.Idx) :
    iblk0 V c 1 t i = (V c main_v7 : S1024x3072.Idx → EReal) i := by
  obtain ⟨-, -, e10, e11, -⟩ := idx_facts0 t
  show (V c main_v7 : S1024x3072.Idx → EReal) (((cfg0.win 1).blk t).view.emb i) = _
  refine congrArg _ (funext fun a => Fin.ext ?_)
  match a with
  | ⟨0, _⟩ => show win0_1.index t (0 : Fin 2) * 1024 + 1 * (i 0).val = (i 0).val; omega
  | ⟨1, _⟩ => show win0_1.index t (1 : Fin 2) * 3072 + 1 * (i 1).val = (i 1).val; omega

/-- The bias row's block at every point is the whole bias row. -/
theorem iblk0_2_apply (c : Dev nD) (t : Fin cfg0.N) (i : S1x3072.Idx) :
    iblk0 V c 2 t i = (V c main_v11 : S1x3072.Idx → EReal) i := by
  obtain ⟨-, -, -, -, e20, e21, -⟩ := idx_facts0 t
  show (V c main_v11 : S1x3072.Idx → EReal) (((cfg0.win 2).blk t).view.emb i) = _
  refine congrArg _ (funext fun a => Fin.ext ?_)
  match a with
  | ⟨0, _⟩ => show win0_2.index t (0 : Fin 2) * 1 + 1 * (i 0).val = (i 0).val; omega
  | ⟨1, _⟩ => show win0_2.index t (1 : Fin 2) * 3072 + 1 * (i 1).val = (i 1).val; omega

/-! ## The array of inner products -/

/-- Output `j` as ONE function of the three argument arrays: at `(R, o)` the inner product of row `R` of the row matrix
    with column `1024·j + o` of the weights, plus entry `1024·j + o` of the bias row. -/
def projArr (j : Fin 3) (X : S8192x1024.Idx → EReal) (Wc : S1024x3072.Idx → EReal) (Bc : S1x3072.Idx → EReal) : S8192x1024.Idx → EReal :=
  fun i => (∑ h : Fin 1024, X (ix2 (⟨(i 0).val, (i 0).isLt⟩ : Fin 8192) h) * Wc (ix2 h (col3 j ⟨(i 1).val, (i 1).isLt⟩)))
    + Bc (ix2 (0 : Fin 1) (col3 j ⟨(i 1).val, (i 1).isLt⟩))

theorem projArr_apply (j : Fin 3) (X : S8192x1024.Idx → EReal) (Wc : S1024x3072.Idx → EReal) (Bc : S1x3072.Idx → EReal) (R : Fin 8192) (o : Fin 1024) :
    projArr j X Wc Bc (ix2 R o) = (∑ h : Fin 1024, X (ix2 R h) * Wc (ix2 h (col3 j o))) + Bc (ix2 (0 : Fin 1) (col3 j o)) := rfl

/-! ## Output 0 -/

/-- What point `t` writes back to output 0 is block `t` of the array of inner products: rows `512·t … 512·t+511`. -/
theorem flushed0_3_eq (c : Dev nD) (X : S8192x1024.Idx → EReal) (Wc : S1024x3072.Idx → EReal) (Bc : S1x3072.Idx → EReal)
    (hX : (V c main_v0 : S8192x1024.Idx → EReal) = X) (hW : (V c main_v7 : S1024x3072.Idx → EReal) = Wc)
    (hB : (V c main_v11 : S1x3072.Idx → EReal) = Bc) (t : Fin cfg0.N) :
    (dat0 V c).flushed 3 t = ((cfg0.win 3).blk t).view.read (Elt Ideal) (projArr 0 X Wc Bc) := by
  show (cfg0.win 3).cut (grid0.coords t) ((dat0 V c).after 3 t) = _
  rw [after0_3]
  funext y
  obtain ⟨r, o, rfl⟩ : ∃ (r : Fin 512) (o : Fin 1024), y = ix2 r o := ⟨y 0, y 1, eq_ix2 y⟩
  obtain ⟨-, -, -, -, -, -, ew0, ew1, -⟩ := idx_facts0 t
  have hN : cfg0.N = 16 := N_0
  have hR : 512 * t.val + r.val < 8192 := by have := t.isLt; have := r.isLt; omega
  show out0_3 (iblk0 V c 0 t) (iblk0 V c 1 t) (iblk0 V c 2 t) (ix2 r o) = projArr 0 X Wc Bc (((cfg0.win 3).blk t).view.emb (ix2 r o))
  have hemb : ((cfg0.win 3).blk t).view.emb (ix2 r o) = ix2 (⟨512 * t.val + r.val, hR⟩ : Fin 8192) o := funext fun a => Fin.ext (by
    match a with
    | ⟨0, _⟩ => show win0_3.index t (0 : Fin 2) * 512 + 1 * r.val = 512 * t.val + r.val; omega
    | ⟨1, _⟩ => show win0_3.index t (1 : Fin 2) * 1024 + 1 * o.val = o.val; omega)
  rw [hemb, out0_3_apply, projArr_apply, iblk0_2_apply, hB]
  refine congrArg (· + _) (Finset.sum_congr rfl fun h _ => ?_)
  rw [iblk0_0_apply V c t r h ⟨512 * t.val + r.val, hR⟩ rfl, iblk0_1_apply, hX, hW]

/-- An index of output 0's array is in point `t`'s block iff each coordinate is in the block's range on its axis. -/
theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v12_0).slice (win0_3.rect t)).set ↔ _
  rw [View.set_slice_whole, Rect.mem_set_unit]
  exact Iff.rfl

/-- Row `R` of output 0's array lies in the block of point `R / 512`. -/
theorem cover0_3 (i : S8192x1024.Idx) : ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, ew0, ew1, -⟩ := idx_facts0 t
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

theorem arr0_3 (c : Dev nD) (X : S8192x1024.Idx → EReal) (Wc : S1024x3072.Idx → EReal) (Bc : S1x3072.Idx → EReal)
    (hX : (V c main_v0 : S8192x1024.Idx → EReal) = X) (hW : (V c main_v7 : S1024x3072.Idx → EReal) = Wc)
    (hB : (V c main_v11 : S1x3072.Idx → EReal) = Bc) (R : Fin 8192) (o : Fin 1024) :
    ((dat0 V c).arrAt 3 cfg0.N : S8192x1024.Idx → EReal) (ix2 R o)
      = (∑ h : Fin 1024, X (ix2 R h) * Wc (ix2 h (col3 0 o))) + Bc (ix2 (0 : Fin 1) (col3 0 o)) := by
  have h := (dat0 V c).arrAt_eq_of_cover 3 (projArr 0 X Wc Bc) (fun t _ => flushed0_3_eq V c X Wc Bc hX hW hB t) cover0_3
  exact (congrFun h (ix2 R o)).trans (projArr_apply 0 X Wc Bc R o)

/-! ## Output 1 -/

/-- What point `t` writes back to output 1 is block `t` of the array of inner products: rows `512·t … 512·t+511`. -/
theorem flushed0_4_eq (c : Dev nD) (X : S8192x1024.Idx → EReal) (Wc : S1024x3072.Idx → EReal) (Bc : S1x3072.Idx → EReal)
    (hX : (V c main_v0 : S8192x1024.Idx → EReal) = X) (hW : (V c main_v7 : S1024x3072.Idx → EReal) = Wc)
    (hB : (V c main_v11 : S1x3072.Idx → EReal) = Bc) (t : Fin cfg0.N) :
    (dat0 V c).flushed 4 t = ((cfg0.win 4).blk t).view.read (Elt Ideal) (projArr 1 X Wc Bc) := by
  show (cfg0.win 4).cut (grid0.coords t) ((dat0 V c).after 4 t) = _
  rw [after0_4]
  funext y
  obtain ⟨r, o, rfl⟩ : ∃ (r : Fin 512) (o : Fin 1024), y = ix2 r o := ⟨y 0, y 1, eq_ix2 y⟩
  obtain ⟨-, -, -, -, -, -, -, -, ew0, ew1, -⟩ := idx_facts0 t
  have hN : cfg0.N = 16 := N_0
  have hR : 512 * t.val + r.val < 8192 := by have := t.isLt; have := r.isLt; omega
  show out0_4 (iblk0 V c 0 t) (iblk0 V c 1 t) (iblk0 V c 2 t) (ix2 r o) = projArr 1 X Wc Bc (((cfg0.win 4).blk t).view.emb (ix2 r o))
  have hemb : ((cfg0.win 4).blk t).view.emb (ix2 r o) = ix2 (⟨512 * t.val + r.val, hR⟩ : Fin 8192) o := funext fun a => Fin.ext (by
    match a with
    | ⟨0, _⟩ => show win0_4.index t (0 : Fin 2) * 512 + 1 * r.val = 512 * t.val + r.val; omega
    | ⟨1, _⟩ => show win0_4.index t (1 : Fin 2) * 1024 + 1 * o.val = o.val; omega)
  rw [hemb, out0_4_apply, projArr_apply, iblk0_2_apply, hB]
  refine congrArg (· + _) (Finset.sum_congr rfl fun h _ => ?_)
  rw [iblk0_0_apply V c t r h ⟨512 * t.val + r.val, hR⟩ rfl, iblk0_1_apply, hX, hW]

/-- An index of output 1's array is in point `t`'s block iff each coordinate is in the block's range on its axis. -/
theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v12_1).slice (win0_4.rect t)).set ↔ _
  rw [View.set_slice_whole, Rect.mem_set_unit]
  exact Iff.rfl

/-- Row `R` of output 1's array lies in the block of point `R / 512`. -/
theorem cover0_4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, -, -, ew0, ew1, -⟩ := idx_facts0 t
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

theorem arr0_4 (c : Dev nD) (X : S8192x1024.Idx → EReal) (Wc : S1024x3072.Idx → EReal) (Bc : S1x3072.Idx → EReal)
    (hX : (V c main_v0 : S8192x1024.Idx → EReal) = X) (hW : (V c main_v7 : S1024x3072.Idx → EReal) = Wc)
    (hB : (V c main_v11 : S1x3072.Idx → EReal) = Bc) (R : Fin 8192) (o : Fin 1024) :
    ((dat0 V c).arrAt 4 cfg0.N : S8192x1024.Idx → EReal) (ix2 R o)
      = (∑ h : Fin 1024, X (ix2 R h) * Wc (ix2 h (col3 1 o))) + Bc (ix2 (0 : Fin 1) (col3 1 o)) := by
  have h := (dat0 V c).arrAt_eq_of_cover 4 (projArr 1 X Wc Bc) (fun t _ => flushed0_4_eq V c X Wc Bc hX hW hB t) cover0_4
  exact (congrFun h (ix2 R o)).trans (projArr_apply 1 X Wc Bc R o)

/-! ## Output 2 -/

/-- What point `t` writes back to output 2 is block `t` of the array of inner products: rows `512·t … 512·t+511`. -/
theorem flushed0_5_eq (c : Dev nD) (X : S8192x1024.Idx → EReal) (Wc : S1024x3072.Idx → EReal) (Bc : S1x3072.Idx → EReal)
    (hX : (V c main_v0 : S8192x1024.Idx → EReal) = X) (hW : (V c main_v7 : S1024x3072.Idx → EReal) = Wc)
    (hB : (V c main_v11 : S1x3072.Idx → EReal) = Bc) (t : Fin cfg0.N) :
    (dat0 V c).flushed 5 t = ((cfg0.win 5).blk t).view.read (Elt Ideal) (projArr 2 X Wc Bc) := by
  show (cfg0.win 5).cut (grid0.coords t) ((dat0 V c).after 5 t) = _
  rw [after0_5]
  funext y
  obtain ⟨r, o, rfl⟩ : ∃ (r : Fin 512) (o : Fin 1024), y = ix2 r o := ⟨y 0, y 1, eq_ix2 y⟩
  obtain ⟨-, -, -, -, -, -, -, -, -, -, ew0, ew1⟩ := idx_facts0 t
  have hN : cfg0.N = 16 := N_0
  have hR : 512 * t.val + r.val < 8192 := by have := t.isLt; have := r.isLt; omega
  show out0_5 (iblk0 V c 0 t) (iblk0 V c 1 t) (iblk0 V c 2 t) (ix2 r o) = projArr 2 X Wc Bc (((cfg0.win 5).blk t).view.emb (ix2 r o))
  have hemb : ((cfg0.win 5).blk t).view.emb (ix2 r o) = ix2 (⟨512 * t.val + r.val, hR⟩ : Fin 8192) o := funext fun a => Fin.ext (by
    match a with
    | ⟨0, _⟩ => show win0_5.index t (0 : Fin 2) * 512 + 1 * r.val = 512 * t.val + r.val; omega
    | ⟨1, _⟩ => show win0_5.index t (1 : Fin 2) * 1024 + 1 * o.val = o.val; omega)
  rw [hemb, out0_5_apply, projArr_apply, iblk0_2_apply, hB]
  refine congrArg (· + _) (Finset.sum_congr rfl fun h _ => ?_)
  rw [iblk0_0_apply V c t r h ⟨512 * t.val + r.val, hR⟩ rfl, iblk0_1_apply, hX, hW]

/-- An index of output 2's array is in point `t`'s block iff each coordinate is in the block's range on its axis. -/
theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v12_2).slice (win0_5.rect t)).set ↔ _
  rw [View.set_slice_whole, Rect.mem_set_unit]
  exact Iff.rfl

/-- Row `R` of output 2's array lies in the block of point `R / 512`. -/
theorem cover0_5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by omega⟩, rfl⟩
  obtain ⟨-, -, -, -, -, -, -, -, -, -, ew0, ew1⟩ := idx_facts0 t
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

theorem arr0_5 (c : Dev nD) (X : S8192x1024.Idx → EReal) (Wc : S1024x3072.Idx → EReal) (Bc : S1x3072.Idx → EReal)
    (hX : (V c main_v0 : S8192x1024.Idx → EReal) = X) (hW : (V c main_v7 : S1024x3072.Idx → EReal) = Wc)
    (hB : (V c main_v11 : S1x3072.Idx → EReal) = Bc) (R : Fin 8192) (o : Fin 1024) :
    ((dat0 V c).arrAt 5 cfg0.N : S8192x1024.Idx → EReal) (ix2 R o)
      = (∑ h : Fin 1024, X (ix2 R h) * Wc (ix2 h (col3 2 o))) + Bc (ix2 (0 : Fin 1) (col3 2 o)) := by
  have h := (dat0 V c).arrAt_eq_of_cover 5 (projArr 2 X Wc Bc) (fun t _ => flushed0_5_eq V c X Wc Bc hX hW hB t) cover0_5
  exact (congrFun h (ix2 R o)).trans (projArr_apply 2 X Wc Bc R o)

end Cert.KernelIdeal.Hand

end
-- ==== Proof.KI.Val1Pts.lean ====
/-
  The flash region point by point: the scratch after a grid point is one tile step, by the pure step functions, of the scratch
  after the point before — of the reset values at the first tile of a query block — on that point's query, key and value
  blocks; and the output block stored at the last tile is numerator over denominator.
-/
import proofs.«402570_j23785528885493_3_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The three scratch contents after grid point `t`. -/
def scAt (c : Dev nD) (t : Fin cfg1.N) : Sc F :=
  ((outsAt1 V c t.val t.isLt).2.1, (outsAt1 V c t.val t.isLt).2.2.1, (outsAt1 V c t.val t.isLt).2.2.2)

/-- One tile step on the blocks of grid point `t`. -/
def blkStep (c : Dev nD) (t : Fin cfg1.N) (sc : Sc F) : Sc F :=
  stepSc (iblk1 V c 0 t) (iblk1 V c 1 t) (iblk1 V c 2 t) sc

/-! ### The whole-buffer rectangles have zero offsets -/

theorem hz2 : (![0, 0] : Fin 2 → Nat) = fun _ => 0 := funext fun a => by fin_cases a <;> rfl
theorem hz3 : (![0, 0, 0] : Fin 3 → Nat) = fun _ => 0 := funext fun a => by fin_cases a <;> rfl

/-! ### What each case's found pieces leave, as the pure step functions of what the body loads -/

theorem sout1_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 hc0 hc1 x0 x1 x2 xs0 xs1 xs2 = stepM x0 x1 xs0 := by
  unfold sout1_B_0
  rw [View.read_writes_eq_canon _ _ _ (scover1_B_0 c i arg3 harg3 arg4 harg4 arg5 harg5 arg6 harg6 arg7 harg7 arg8 harg8 arg9 harg9 hc0 hc1 x0 x1 x2 xs0 xs1 xs2)]
  unfold kernelRun1_B
  dsimp only
  sl_unfold_words
  (try dsimp only)
  rw [View.canon_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 hc0 hc1 x0 x1 x2 xs0 xs1 xs2 = stepL x0 x1 xs0 xs1 := by
  unfold sout1_B_1
  rw [View.read_writes_eq_canon _ _ _ (scover1_B_1 c i arg3 harg3 arg4 harg4 arg5 harg5 arg6 harg6 arg7 harg7 arg8 harg8 arg9 harg9 hc0 hc1 x0 x1 x2 xs0 xs1 xs2)]
  unfold kernelRun1_B
  dsimp only
  sl_unfold_words
  (try dsimp only)
  rw [View.canon_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 hc0 hc1 x0 x1 x2 xs0 xs1 xs2 = stepA x0 x1 x2 xs0 xs2 := by
  unfold sout1_B_2
  rw [View.read_writes_eq_canon _ _ _ (scover1_B_2 c i arg3 harg3 arg4 harg4 arg5 harg5 arg6 harg6 arg7 harg7 arg8 harg8 arg9 harg9 hc0 hc1 x0 x1 x2 xs0 xs1 xs2)]
  unfold kernelRun1_B
  dsimp only
  sl_unfold_words
  (try dsimp only)
  rw [View.canon_unit_zero (S := S1024x1024) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_C_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_C_0 c i arg3 harg3 arg4 harg4 arg5 harg5 arg6 harg6 arg7 harg7 arg8 harg8 arg9 harg9 hc0 hc1 x0 x1 x2 xs0 xs1 xs2 = stepM x0 x1 xs0 := by
  unfold sout1_C_0
  rw [View.read_writes_eq_canon _ _ _ (scover1_C_0 c i arg3 harg3 arg4 harg4 arg5 harg5 arg6 harg6 arg7 harg7 arg8 harg8 arg9 harg9 hc0 hc1 x0 x1 x2 xs0 xs1 xs2)]
  unfold kernelRun1_C
  dsimp only
  sl_unfold_words
  (try dsimp only)
  rw [View.canon_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_C_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_C_1 c i arg3 harg3 arg4 harg4 arg5 harg5 arg6 harg6 arg7 harg7 arg8 harg8 arg9 harg9 hc0 hc1 x0 x1 x2 xs0 xs1 xs2 = stepL x0 x1 xs0 xs1 := by
  unfold sout1_C_1
  rw [View.read_writes_eq_canon _ _ _ (scover1_C_1 c i arg3 harg3 arg4 harg4 arg5 harg5 arg6 harg6 arg7 harg7 arg8 harg8 arg9 harg9 hc0 hc1 x0 x1 x2 xs0 xs1 xs2)]
  unfold kernelRun1_C
  dsimp only
  sl_unfold_words
  (try dsimp only)
  rw [View.canon_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_C_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_C_2 c i arg3 harg3 arg4 harg4 arg5 harg5 arg6 harg6 arg7 harg7 arg8 harg8 arg9 harg9 hc0 hc1 x0 x1 x2 xs0 xs1 xs2 = stepA x0 x1 x2 xs0 xs2 := by
  unfold sout1_C_2
  rw [View.read_writes_eq_canon _ _ _ (scover1_C_2 c i arg3 harg3 arg4 harg4 arg5 harg5 arg6 harg6 arg7 harg7 arg8 harg8 arg9 harg9 hc0 hc1 x0 x1 x2 xs0 xs1 xs2)]
  unfold kernelRun1_C
  dsimp only
  sl_unfold_words
  (try dsimp only)
  rw [View.canon_unit_zero (S := S1024x1024) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem out1_C_3_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    out1_C_3 c i arg3 harg3 arg4 harg4 arg5 harg5 arg6 harg6 arg7 harg7 arg8 harg8 arg9 harg9 hc0 hc1 x0 x1 x2 xs0 xs1 xs2 = outO (stepA x0 x1 x2 xs0 xs2) (stepL x0 x1 xs0 xs1) := by
  unfold out1_C_3
  rw [View.read_writes_eq_canon _ _ _ (cover1_C_3 c i arg3 harg3 arg4 harg4 arg5 harg5 arg6 harg6 arg7 harg7 arg8 harg8 arg9 harg9 hc0 hc1 x0 x1 x2 xs0 xs1 xs2)]
  unfold kernelRun1_C
  dsimp only
  sl_unfold_words
  (try dsimp only)
  rw [View.canon_unit_zero (S := S1x1024x1024) hz3]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    sout1_A_0 c i arg3 harg3 arg4 harg4 arg5 harg5 arg6 harg6 arg7 harg7 arg8 harg8 arg9 harg9 hc0 hc1 x0 x1 x2 = stepM x0 x1 initM := by
  unfold sout1_A_0
  rw [View.read_writes_eq_canon _ _ _ (scover1_A_0 c i arg3 harg3 arg4 harg4 arg5 harg5 arg6 harg6 arg7 harg7 arg8 harg8 arg9 harg9 hc0 hc1 x0 x1 x2)]
  unfold kernelRun1_A
  dsimp only
  sl_unfold_words
  (try dsimp only)
  rw [View.canon_cons_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    sout1_A_1 c i arg3 harg3 arg4 harg4 arg5 harg5 arg6 harg6 arg7 harg7 arg8 harg8 arg9 harg9 hc0 hc1 x0 x1 x2 = stepL x0 x1 initM initL := by
  unfold sout1_A_1
  rw [View.read_writes_eq_canon _ _ _ (scover1_A_1 c i arg3 harg3 arg4 harg4 arg5 harg5 arg6 harg6 arg7 harg7 arg8 harg8 arg9 harg9 hc0 hc1 x0 x1 x2)]
  unfold kernelRun1_A
  dsimp only
  sl_unfold_words
  (try dsimp only)
  rw [View.canon_cons_unit_zero (S := S1024x1) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

theorem sout1_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : ¬cond1_1 i)
    (x0 : Vec F S1x1024x1024 .bf16) (x1 : Vec F S1x512x1024 .bf16) (x2 : Vec F S1x512x1024 .bf16) :
    sout1_A_2 c i arg3 harg3 arg4 harg4 arg5 harg5 arg6 harg6 arg7 harg7 arg8 harg8 arg9 harg9 hc0 hc1 x0 x1 x2 = stepA x0 x1 x2 initM initA := by
  unfold sout1_A_2
  rw [View.read_writes_eq_canon _ _ _ (scover1_A_2 c i arg3 harg3 arg4 harg4 arg5 harg5 arg6 harg6 arg7 harg7 arg8 harg8 arg9 harg9 hc0 hc1 x0 x1 x2)]
  unfold kernelRun1_A
  dsimp only
  sl_unfold_words
  (try dsimp only)
  rw [View.canon_cons_unit_zero (S := S1024x1024) hz2]
  simp only [View.readAt_eq_ld, harg3.read_unread, harg4.read_unread, harg5.read_unread, harg7.read_unread, harg8.read_unread, harg9.read_unread, View.ld_unit_zero (S := S1x1024x1024) hz3, View.ld_unit_zero (S := S1x512x1024) hz3, View.ld_unit_zero (S := S1024x1) hz2, View.ld_unit_zero (S := S1024x1024) hz2, View.readCov_unit_zero (S := S1024x1) _ hz2, View.readCov_unit_zero (S := S1024x1024) _ hz2]
  rfl

/-! ### The scratch point by point -/

/-- At the first tile of a query block the scratch is reset first. -/
theorem scAt_first (c : Dev nD) (t : Fin cfg1.N) (h : t.val % 4 = 0) : scAt V c t = blkStep V c t initSc := by
  have h1 : ¬t.val % 4 = 3 := by omega
  unfold scAt blkStep stepSc initSc
  rw [outsAt1_A V c t h h1]
  dsimp only
  rw [sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h) (fun h' => h1 ((hcond1_1 t).mp h')) (iblk1 V c 0 t) (iblk1 V c 1 t) (iblk1 V c 2 t),
    sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h) (fun h' => h1 ((hcond1_1 t).mp h')) (iblk1 V c 0 t) (iblk1 V c 1 t) (iblk1 V c 2 t),
    sout1_A_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h) (fun h' => h1 ((hcond1_1 t).mp h')) (iblk1 V c 0 t) (iblk1 V c 1 t) (iblk1 V c 2 t)]

/-- At a later tile the step starts from what the point before left. -/
theorem scAt_next (c : Dev nD) (t : Fin cfg1.N) (h : ¬t.val % 4 = 0) :
    scAt V c t = blkStep V c t (scAt V c ⟨t.val - 1, Nat.lt_of_le_of_lt (Nat.sub_le _ _) t.isLt⟩) := by
  unfold scAt blkStep stepSc
  by_cases h1 : t.val % 4 = 3
  · rw [outsAt1_C V c t h h1]
    dsimp only
    rw [sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  · rw [outsAt1_B V c t h h1]
    dsimp only
    rw [sout1_B_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2,
      sout1_B_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]

/-- At the last tile the output block is numerator over denominator of the scratch just stored. -/
theorem out_last (c : Dev nD) (t : Fin cfg1.N) (h : t.val % 4 = 3) :
    (outsAt1 V c t.val t.isLt).1 = outO (scAt V c t).2.2 (scAt V c t).2.1 := by
  have h0 : ¬t.val % 4 = 0 := by omega
  unfold scAt
  rw [outsAt1_C V c t h0 h]
  dsimp only
  rw [sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2]
  exact out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h' => h0 ((hcond1_0 t).mp h')) ((hcond1_1 t).mpr h) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

end Cert.KernelIdeal.Hand

end
-- ==== Proof.Spec.lean ====
/-
  The two programs as index-wise functions on the extended reals.

  Both compute single-head attention over a batch: with the rows of `X` projected by three linear layers
  `y[o] = Σ_h x[h]·W[o,h] + b[o]` into queries, keys and values, the result at batch `b`, query row `s`, column `o` is
  `Σ_t softmax_t(⟨Q[b,s], K[b,t]⟩ / 32) · V[b,t,o]`.

  * The reference divides the scores by `sqrt 1024`, subtracts the row's maximum, exponentiates, divides by the row's sum and
    contracts with `V` (`refOut`).
  * The kernel folds the factor `1/32` (the f32 word `0x3D000000`, exactly `2⁻⁵`) into the query weights and bias, walks the
    2048 keys in four tiles of 512 keeping a running maximum `m`, a running denominator `l` and a running numerator `a`
    rescaled by `exp (m_old - m_new)` at every tile, and divides at the end (`kernelOut`).
-/
import Idealize.ShloMosaic.PureOps.Ideal

noncomputable section

namespace Cert.Spec

open Idealize.ShloMosaic

/-- The f32 word of `0.03125 = 2⁻⁵`, the kernel's folded `1 / sqrt 1024`. -/
abbrev c32 : EReal := Ideal.ofBits .f32 0x3D000000#32

/-- The f32 word of `1024.0`, whose square root the reference divides the scores by. -/
abbrev c1024 : EReal := Ideal.ofBits .f32 0x44800000#32

/-- A linear layer on one row: `y[o] = Σ_h x[h]·W[o,h] + b[o]`. -/
def lin (x : Fin 1024 → EReal) (w : Fin 1024 → Fin 1024 → EReal) (b : Fin 1024 → EReal) (o : Fin 1024) : EReal :=
  (∑ h : Fin 1024, x h * w o h) + b o

/-- The same with weights and bias scaled by `2⁻⁵` first: the kernel's query projection. -/
def linS (x : Fin 1024 → EReal) (w : Fin 1024 → Fin 1024 → EReal) (b : Fin 1024 → EReal) (o : Fin 1024) : EReal :=
  (∑ h : Fin 1024, x h * (w o h * c32)) + b o * c32

/-- The inner product of two rows of width 1024. -/
def dotq (q k : Fin 1024 → EReal) : EReal := ∑ h : Fin 1024, q h * k h

/-- Key `k` of tile `j` among the 2048 keys. -/
def tile (j : Fin 4) (k : Fin 512) : Fin 2048 := ⟨j.val * 512 + k.val, by have := j.isLt; have := k.isLt; omega⟩

/-- The running state of one query row: maximum, denominator, numerator per output column. -/
abbrev St : Type := EReal × EReal × (Fin 1024 → EReal)

/-- Before the first tile: maximum `-∞`, both sums zero. -/
def finit : St := (⊥, 0, fun _ => 0)

/-- One tile of the running softmax: scores `s`, values `v`. -/
def fstep (st : St) (s : Fin 512 → EReal) (v : Fin 512 → Fin 1024 → EReal) : St :=
  (max st.1 ((Finset.univ : Finset (Fin 512)).fold max ⊥ s),
   Ideal.exp (st.1 - max st.1 ((Finset.univ : Finset (Fin 512)).fold max ⊥ s)) * st.2.1
     + ∑ k : Fin 512, Ideal.exp (s k - max st.1 ((Finset.univ : Finset (Fin 512)).fold max ⊥ s)),
   fun o => Ideal.exp (st.1 - max st.1 ((Finset.univ : Finset (Fin 512)).fold max ⊥ s)) * st.2.2 o
     + ∑ k : Fin 512, Ideal.exp (s k - max st.1 ((Finset.univ : Finset (Fin 512)).fold max ⊥ s)) * v k o)

/-- The state after `n` tiles (`n ≤ 4`). -/
def frun (s : Fin 4 → Fin 512 → EReal) (v : Fin 4 → Fin 512 → Fin 1024 → EReal) : (n : Nat) → n ≤ 4 → St
  | 0, _ => finit
  | n + 1, h => fstep (frun s v n (Nat.le_of_succ_le h)) (s ⟨n, h⟩) (v ⟨n, h⟩)

/-- The kernel's last step: numerator over denominator. -/
def fout (st : St) (o : Fin 1024) : EReal := Ideal.div (st.2.2 o) st.2.1

/-- The kernel's result at batch `b`, row `s`, column `o`. -/
def kernelOut (X : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (b : Fin 4) (s : Fin 2048) (o : Fin 1024) : EReal :=
  fout (frun (fun j k => dotq (linS (X b s) Wq bq) (lin (X b (tile j k)) Wk bk))
    (fun j k o' => lin (X b (tile j k)) Wv bv o') 4 (Nat.le_refl 4)) o

/-- The reference's scaled score of query row `s` against key `t`. -/
def refScore (X : Fin 4 → Fin 2048 → Fin 1024 → EReal) (Wq : Fin 1024 → Fin 1024 → EReal) (bq : Fin 1024 → EReal)
    (Wk : Fin 1024 → Fin 1024 → EReal) (bk : Fin 1024 → EReal) (b : Fin 4) (s t : Fin 2048) : EReal :=
  Ideal.div (dotq (lin (X b s) Wq bq) (lin (X b t) Wk bk)) (Ideal.sqrt c1024)

/-- The reference's row maximum (the reduce's initial value `-∞`, then jax's `maximum` with `-∞` again). -/
def refMax (S : Fin 2048 → EReal) : EReal := max ⊥ ((Finset.univ : Finset (Fin 2048)).fold max ⊥ S)

/-- The reference's result at batch `b`, row `s`, column `o`. -/
def refOut (X : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (b : Fin 4) (s : Fin 2048) (o : Fin 1024) : EReal :=
  ∑ t : Fin 2048,
    Ideal.div (Ideal.exp (refScore X Wq bq Wk bk b s t - refMax (refScore X Wq bq Wk bk b s)))
        (0 + ∑ t' : Fin 2048, Ideal.exp (refScore X Wq bq Wk bk b s t' - refMax (refScore X Wq bq Wk bk b s)))
      * lin (X b t) Wv bv o

end Cert.Spec

end
-- ==== Proof.KI.Val1Pure.lean ====
/-
  The flash kernel's step functions, read one query row at a time on the extended reals, are the running softmax of `Spec`.

  Row `r` of the scratch is the triple (maximum, denominator, numerator row); one tile sends it to `Spec.fstep` of it, the
  tile's scores being the inner products of query row `r` with the tile's key rows, and the output block is the quotient.
-/
import proofs.«402570_j23785528885493_3_alg».proof.Proof.KI.R1Pure
import proofs.«402570_j23785528885493_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- Row `r` of the three scratch contents as the running state of that query row. -/
def rowSt (sc : Sc Ideal) (r : Fin 1024) : Cert.Spec.St :=
  (sc.1 (ix2 r (0 : Fin 1)), sc.2.1 (ix2 r (0 : Fin 1)), fun o => sc.2.2 (ix2 r o))

/-! ### Words and layout operations at explicit coordinates -/

/-- The f32 word `0xFF800000` is `-∞`. -/
theorem ofBits_neg_inf : Ideal.ofBits .f32 0xFF800000#32 = ⊥ := by
  simp [Ideal.ofBits, Ideal.ieee]

/-- An `[a]` array cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The two products at an index -/

theorem lhs_qk_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_qk_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_qk_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_qk_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The score product into the zero splat: entry `(r, c)` is the inner product of row `r` of the left operand with column `c` of the right. -/
theorem matmul_qk_apply (lhs : FVec Ideal S1024x1024 .bf16) (rhs : FVec Ideal S1024x512 .bf16) (r : Fin 1024) (c : Fin 512) :
    matmul dot_S1024x1024_S1024x512_S1024x512_1_0_0_1_n_n none lhs rhs (constant (F := Ideal) S1024x512 .f32 0x00000000#32) (ix2 r c)
      = ∑ h : Fin 1024, lhs (ix2 r h) * rhs (ix2 h c) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r c) ((contrEquiv1 dot_S1024x1024_S1024x512_S1024x512_1_0_0_1_n_n 1024 rfl rfl).symm k) = ix2 r k := funext fun a => Fin.ext (by
    match a with
    | ⟨0, _⟩ => exact lhs_qk_0 _ _
    | ⟨1, _⟩ => exact (lhs_qk_1 _ _).trans hk)
  have er : dot_S1024x1024_S1024x512_S1024x512_1_0_0_1_n_n.rhsIdx (ix2 r c) ((contrEquiv1 dot_S1024x1024_S1024x512_S1024x512_1_0_0_1_n_n 1024 rfl rfl).symm k) = ix2 k c := funext fun a => Fin.ext (by
    match a with
    | ⟨0, _⟩ => exact (rhs_qk_0 _ _).trans hk
    | ⟨1, _⟩ => exact rhs_qk_1 _ _)
  rw [el, er]

theorem lhs_pv_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_pv_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_pv_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_pv_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The value product into the zero splat: entry `(r, o)` is the sum over the tile's keys of the weight times the value. -/
theorem matmul_pv_apply (lhs : FVec Ideal S1024x512 .bf16) (rhs : FVec Ideal S512x1024 .bf16) (r : Fin 1024) (o : Fin 1024) :
    matmul dot_S1024x512_S512x1024_S1024x1024_1_0_0_1_n_n none lhs rhs (constant (F := Ideal) S1024x1024 .f32 0x00000000#32) (ix2 r o)
      = ∑ kk : Fin 512, lhs (ix2 r kk) * rhs (ix2 kk o) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 r o) ((contrEquiv1 dot_S1024x512_S512x1024_S1024x1024_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S1024x512_S512x1024_S1024x1024_1_0_0_1_n_n.rhsIdx (ix2 r o) ((contrEquiv1 dot_S1024x512_S512x1024_S1024x1024_1_0_0_1_n_n 512 rfl rfl).symm k) = ix2 k o := funext fun a => Fin.ext (by
    match a with
    | ⟨0, _⟩ => exact (rhs_pv_0 _ _).trans hk
    | ⟨1, _⟩ => exact rhs_pv_1 _ _)
  rw [el, er]

/-! ### The payloads at an index -/

/-- The tile's score block at `(r, kk)`: query row `r` against key row `kk`. -/
theorem pay8_apply (q : Vec Ideal S1x1024x1024 .bf16) (k : Vec Ideal S1x512x1024 .bf16) (r : Fin 1024) (kk : Fin 512) :
    k1_pay8 q k (ix2 r kk) = Cert.Spec.dotq (fun h => q (ix3 (0 : Fin 1) r h)) (fun h => k (ix3 (0 : Fin 1) kk h)) := by
  unfold k1_pay8 Cert.Spec.dotq
  refine (matmul_qk_apply _ _ r kk).trans ?_
  refine Finset.sum_congr rfl fun h _ => ?_
  rw [shapeCast_1ab_ab_apply, transpose_ix2_apply, shapeCast_1ab_ab_apply]

/-- Key `kk` inserted into row `r` of the score block. -/
theorem lift_row (r : Fin 1024) (kk : Fin 512) : reduces_S1024x512_S1024.lift (ix1 r) kk = ix2 r kk :=
  funext fun a => Fin.ext (by match a with | ⟨0, _⟩ => rfl | ⟨1, _⟩ => rfl)

/-- The lane maximum of a `1024 × 512` block at row `r`: the fold of `max` from `-∞` over the row. -/
theorem rowmax_apply (x : FVec Ideal S1024x512 .f32) (r : Fin 1024) :
    multiReduction (F := Ideal) .maximumf [1] S1024 x 0xFF800000#32 reduces_S1024x512_S1024 (.inl rfl) rfl (ix1 r)
      = (Finset.univ : Finset (Fin 512)).fold max ⊥ (fun kk => x (ix2 r kk)) := by
  refine (Ideal.multiReduction_maximumf_single x _ reduces_S1024x512_S1024 _ _ (ix1 r)).trans ?_
  have e : (x ∘ reduces_S1024x512_S1024.lift (ix1 r)) = fun kk : Fin 512 => x (ix2 r kk) :=
    funext fun kk => congrArg x (lift_row r kk)
  rw [e]
  show (Finset.univ : Finset (Fin 512)).fold max (Ideal.ofBits .f32 0xFF800000#32) _ = _
  rw [ofBits_neg_inf]

/-- The lane sum of a `1024 × 512` block at row `r`. -/
theorem rowsum_apply (x : FVec Ideal S1024x512 .f32) (r : Fin 1024) :
    multiReduction (F := Ideal) .add [1] S1024 x 0x00000000#32 reduces_S1024x512_S1024 (.inl rfl) rfl (ix1 r)
      = ∑ kk : Fin 512, x (ix2 r kk) := by
  refine (Ideal.multiReduction_add_single x _ reduces_S1024x512_S1024 _ _ (ix1 r)).trans ?_
  exact Finset.sum_congr rfl fun kk _ => congrArg x (lift_row r kk)

/-- The new running maximum of row `r`. -/
theorem pay9_apply (q : Vec Ideal S1x1024x1024 .bf16) (k : Vec Ideal S1x512x1024 .bf16) (m : Vec Ideal S1024x1 .f32) (r : Fin 1024) :
    k1_pay9 q k m (ix2 r (0 : Fin 1))
      = max (m (ix2 r (0 : Fin 1))) ((Finset.univ : Finset (Fin 512)).fold max ⊥ (fun kk => k1_pay8 q k (ix2 r kk))) := by
  unfold k1_pay9
  rw [maximumf_apply]
  refine congrArg (max (m (ix2 r (0 : Fin 1)))) ?_
  refine (shapeCast_a_a1_apply _ shapeCasts_S1024_S1024x1 r (0 : Fin 1)).trans ?_
  exact rowmax_apply (k1_pay8 q k) r

/-- The rescaling factor of row `r`: `exp (m' - m_new)`. -/
theorem pay10_apply (q : Vec Ideal S1x1024x1024 .bf16) (k : Vec Ideal S1x512x1024 .bf16) (m m' : Vec Ideal S1024x1 .f32) (r : Fin 1024) :
    k1_pay10 q k m m' (ix2 r (0 : Fin 1)) = Ideal.exp (m' (ix2 r (0 : Fin 1)) - k1_pay9 q k m (ix2 r (0 : Fin 1))) := rfl

/-- The tile's weights: `exp (score - m_new)`. -/
theorem pay11_apply (q : Vec Ideal S1x1024x1024 .bf16) (k : Vec Ideal S1x512x1024 .bf16) (m : Vec Ideal S1024x1 .f32) (r : Fin 1024) (kk : Fin 512) :
    k1_pay11 q k m (ix2 r kk) = Ideal.exp (k1_pay8 q k (ix2 r kk) - k1_pay9 q k m (ix2 r (0 : Fin 1))) := by
  unfold k1_pay11
  show Ideal.exp (k1_pay8 q k (ix2 r kk) - broadcastTo S1024x512 (k1_pay9 q k m) broadcasts_S1024x1_S1024x512 (ix2 r kk)) = _
  rw [broadcastTo_a1_ab_apply]

/-- The new running denominator of row `r`. -/
theorem pay12_apply (q : Vec Ideal S1x1024x1024 .bf16) (k : Vec Ideal S1x512x1024 .bf16) (m m' l : Vec Ideal S1024x1 .f32) (r : Fin 1024) :
    k1_pay12 q k m m' l (ix2 r (0 : Fin 1))
      = Ideal.exp (m' (ix2 r (0 : Fin 1)) - k1_pay9 q k m (ix2 r (0 : Fin 1))) * l (ix2 r (0 : Fin 1))
        + ∑ kk : Fin 512, Ideal.exp (k1_pay8 q k (ix2 r kk) - k1_pay9 q k m (ix2 r (0 : Fin 1))) := by
  unfold k1_pay12
  rw [shapeCast_self, addf_apply, mulf_apply, pay10_apply]
  refine congrArg (Ideal.exp (m' (ix2 r (0 : Fin 1)) - k1_pay9 q k m (ix2 r (0 : Fin 1))) * l (ix2 r (0 : Fin 1)) + ·) ?_
  refine (shapeCast_a_a1_apply _ shapeCasts_S1024_S1024x1 r (0 : Fin 1)).trans ?_
  refine (rowsum_apply (k1_pay11 q k m) r).trans ?_
  exact Finset.sum_congr rfl fun kk _ => pay11_apply q k m r kk

/-- The rescaling factor broadcast along the numerator's row. -/
theorem pay13_apply (q : Vec Ideal S1x1024x1024 .bf16) (k : Vec Ideal S1x512x1024 .bf16) (m m' : Vec Ideal S1024x1 .f32) (r o : Fin 1024) :
    k1_pay13 q k m m' (ix2 r o) = Ideal.exp (m' (ix2 r (0 : Fin 1)) - k1_pay9 q k m (ix2 r (0 : Fin 1))) := by
  unfold k1_pay13
  exact (broadcastTo_a1_ab_apply _ broadcasts_S1024x1_S1024x1024 r o).trans (pay10_apply q k m m' r)

/-- The value tile with its unit axis dropped. -/
theorem pay7_apply (v : Vec Ideal S1x512x1024 .bf16) (kk : Fin 512) (o : Fin 1024) :
    k1_pay7 v (ix2 kk o) = v (ix3 (0 : Fin 1) kk o) := by
  unfold k1_pay7
  exact shapeCast_1ab_ab_apply v shapeCasts_S1x512x1024_S512x1024 kk o

/-- The new running numerator at `(r, o)`, over whatever the four operands are. -/
theorem pay1_apply (v8 : FVec Ideal S512x1024 .bf16) (v20 : FVec Ideal S1024x512 .f32) (v29 : Vec Ideal S1024x1024 .f32)
    (v30 : FVec Ideal S1024x1024 .f32) (r o : Fin 1024) :
    k1_pay1 v8 v20 v29 v30 (ix2 r o) = v30 (ix2 r o) * v29 (ix2 r o) + ∑ kk : Fin 512, v20 (ix2 r kk) * v8 (ix2 kk o) := by
  unfold k1_pay1
  rw [shapeCast_self, addf_apply, mulf_apply, matmul_pv_apply]
  rfl

/-! ### One tile, row by row -/

theorem stepM_row (q : Vec Ideal S1x1024x1024 .bf16) (k : Vec Ideal S1x512x1024 .bf16) (m : Vec Ideal S1024x1 .f32) (r : Fin 1024) :
    stepM q k m (ix2 r (0 : Fin 1))
      = max (m (ix2 r (0 : Fin 1))) ((Finset.univ : Finset (Fin 512)).fold max ⊥
          (fun kk => Cert.Spec.dotq (fun h => q (ix3 (0 : Fin 1) r h)) (fun h => k (ix3 (0 : Fin 1) kk h)))) := by
  unfold stepM k1_pay2
  rw [shapeCast_self, pay9_apply]
  simp only [pay8_apply]

theorem stepL_row (q : Vec Ideal S1x1024x1024 .bf16) (k : Vec Ideal S1x512x1024 .bf16) (m l : Vec Ideal S1024x1 .f32) (r : Fin 1024) :
    stepL q k m l (ix2 r (0 : Fin 1))
      = Ideal.exp (m (ix2 r (0 : Fin 1)) - max (m (ix2 r (0 : Fin 1))) ((Finset.univ : Finset (Fin 512)).fold max ⊥
            (fun kk => Cert.Spec.dotq (fun h => q (ix3 (0 : Fin 1) r h)) (fun h => k (ix3 (0 : Fin 1) kk h))))) * l (ix2 r (0 : Fin 1))
        + ∑ kk : Fin 512, Ideal.exp (Cert.Spec.dotq (fun h => q (ix3 (0 : Fin 1) r h)) (fun h => k (ix3 (0 : Fin 1) kk h))
            - max (m (ix2 r (0 : Fin 1))) ((Finset.univ : Finset (Fin 512)).fold max ⊥
              (fun kk => Cert.Spec.dotq (fun h => q (ix3 (0 : Fin 1) r h)) (fun h => k (ix3 (0 : Fin 1) kk h))))) := by
  unfold stepL
  rw [pay12_apply, pay9_apply]
  simp only [pay8_apply]

theorem stepA_row (q : Vec Ideal S1x1024x1024 .bf16) (k v : Vec Ideal S1x512x1024 .bf16) (m : Vec Ideal S1024x1 .f32)
    (a : Vec Ideal S1024x1024 .f32) (r o : Fin 1024) :
    stepA q k v m a (ix2 r o)
      = Ideal.exp (m (ix2 r (0 : Fin 1)) - max (m (ix2 r (0 : Fin 1))) ((Finset.univ : Finset (Fin 512)).fold max ⊥
            (fun kk => Cert.Spec.dotq (fun h => q (ix3 (0 : Fin 1) r h)) (fun h => k (ix3 (0 : Fin 1) kk h))))) * a (ix2 r o)
        + ∑ kk : Fin 512, Ideal.exp (Cert.Spec.dotq (fun h => q (ix3 (0 : Fin 1) r h)) (fun h => k (ix3 (0 : Fin 1) kk h))
            - max (m (ix2 r (0 : Fin 1))) ((Finset.univ : Finset (Fin 512)).fold max ⊥
              (fun kk => Cert.Spec.dotq (fun h => q (ix3 (0 : Fin 1) r h)) (fun h => k (ix3 (0 : Fin 1) kk h)))))
            * v (ix3 (0 : Fin 1) kk o) := by
  unfold stepA
  rw [pay1_apply, pay13_apply, pay9_apply]
  simp only [pay11_apply, pay9_apply, pay8_apply, pay7_apply]

/-! ### The three statements -/

theorem initSc_row (r : Fin 1024) : rowSt (initSc (F := Ideal)) r = Cert.Spec.finit := by
  unfold rowSt initSc initM initL initA k1_pay4 k1_pay5 k1_pay6 Cert.Spec.finit
  simp only [shapeCast_self, broadcast_apply]
  refine Prod.ext ?_ (Prod.ext ?_ ?_)
  · exact ofBits_neg_inf
  · exact Ideal.ofBits_zero_f32
  · funext o; exact Ideal.ofBits_zero_f32

theorem stepSc_row (q : Vec Ideal S1x1024x1024 .bf16) (k v : Vec Ideal S1x512x1024 .bf16) (sc : Sc Ideal) (r : Fin 1024) :
    rowSt (stepSc q k v sc) r
      = Cert.Spec.fstep (rowSt sc r)
          (fun kk => Cert.Spec.dotq (fun h => q (ix3 (0 : Fin 1) r h)) (fun h => k (ix3 (0 : Fin 1) kk h)))
          (fun kk o => v (ix3 (0 : Fin 1) kk o)) := by
  unfold rowSt stepSc Cert.Spec.fstep
  refine Prod.ext ?_ (Prod.ext ?_ ?_)
  · exact stepM_row q k sc.1 r
  · exact stepL_row q k sc.1 sc.2.1 r
  · funext o
    exact stepA_row q k v sc.1 sc.2.2 r o

theorem outO_apply (a : Vec Ideal S1024x1024 .f32) (l : Vec Ideal S1024x1 .f32) (r o : Fin 1024) :
    outO a l (ix3 (0 : Fin 1) r o) = Ideal.div (a (ix2 r o)) (l (ix2 r (0 : Fin 1))) := by
  unfold outO k1_pay3
  refine (shapeCast_ab_1ab_apply _ shapeCasts_S1024x1024_S1x1024x1024 (0 : Fin 1) r o).trans ?_
  rw [divf_apply]
  exact congrArg (Ideal.div (a (ix2 r o))) (broadcastTo_a1_ab_apply l broadcasts_S1024x1_S1024x1024 r o)

end Cert.KernelIdeal.Hand

end
-- ==== Proof.KI.Val1Arr.lean ====
/-
  What the flash region leaves in the result array, read at an index on the extended reals: the 8 output blocks written back
  at the last key tile of each (batch, query block) cover the array, and the block written there is the quotient of the
  numerator and denominator the four tiles of that query block have accumulated — row by row `Spec.frun` over the four tiles.
-/
import proofs.«402570_j23785528885493_3_alg».proof.Proof.KI.Val1Pts
import proofs.«402570_j23785528885493_3_alg».proof.Proof.KI.Val1Pure
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Where the blocks sit

  The grid is 4 × 2 × 4 (batch, query block, key tile), point `t = 8·b + 4·qi + ki`. The query block and the result block at
  `t` are rows `1024·qi … 1024·qi+1023` of batch `b`; the key and value tiles are rows `512·ki … 512·ki+511` of batch `b`. -/

theorem idx_facts1 : ∀ t : Fin cfg1.N,
    (win1_0.index t (0 : Fin 3) = t.val / 8 ∧ win1_0.index t (1 : Fin 3) = (t.val / 4) % 2 ∧ win1_0.index t (2 : Fin 3) = 0)
    ∧ (win1_1.index t (0 : Fin 3) = t.val / 8 ∧ win1_1.index t (1 : Fin 3) = t.val % 4 ∧ win1_1.index t (2 : Fin 3) = 0)
    ∧ (win1_2.index t (0 : Fin 3) = t.val / 8 ∧ win1_2.index t (1 : Fin 3) = t.val % 4 ∧ win1_2.index t (2 : Fin 3) = 0)
    ∧ (win1_3.index t (0 : Fin 3) = t.val / 8 ∧ win1_3.index t (1 : Fin 3) = (t.val / 4) % 2 ∧ win1_3.index t (2 : Fin 3) = 0) :=
  (by decide +kernel : ∀ t : Fin grid1.N, _)

/-- Row `r` of the query block at point `t` is row `1024·((t/4)%2) + r` of batch `t/8` of the query array. -/
theorem iblk1_0_apply (c : Dev nD) (t : Fin cfg1.N) (r : Fin 1024) (h : Fin 1024) (b : Fin 4) (s : Fin 2048)
    (hb : b.val = t.val / 8) (hs : s.val = 1024 * ((t.val / 4) % 2) + r.val) :
    iblk1 V c 0 t (ix3 (0 : Fin 1) r h) = (V c main_v13 : S4x2048x1024.Idx → EReal) (ix3 b s h) := by
  obtain ⟨⟨e0, e1, e2⟩, -⟩ := idx_facts1 t
  show (V c main_v13 : S4x2048x1024.Idx → EReal) (((cfg1.win 0).blk t).view.emb (ix3 (0 : Fin 1) r h)) = _
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * r.val = s.val; omega
  | ⟨2, _⟩ => show win1_0.index t (2 : Fin 3) * 1024 + 1 * h.val = h.val; omega

/-- Row `kk` of the key tile at point `t` is row `512·(t%4) + kk` of batch `t/8` of the key array. -/
theorem iblk1_1_apply (c : Dev nD) (t : Fin cfg1.N) (kk : Fin 512) (h : Fin 1024) (b : Fin 4) (s : Fin 2048)
    (hb : b.val = t.val / 8) (hs : s.val = 512 * (t.val % 4) + kk.val) :
    iblk1 V c 1 t (ix3 (0 : Fin 1) kk h) = (V c main_v14 : S4x2048x1024.Idx → EReal) (ix3 b s h) := by
  obtain ⟨-, ⟨e0, e1, e2⟩, -⟩ := idx_facts1 t
  show (V c main_v14 : S4x2048x1024.Idx → EReal) (((cfg1.win 1).blk t).view.emb (ix3 (0 : Fin 1) kk h)) = _
  refine congrArg _ (funext fun a => Fin.ext ?_)
  match a with
  | ⟨0, _⟩ => show win1_1.index t (0 : Fin 3) * 1 + 1 * 0 = b.val; omega
  | ⟨1, _⟩ => show win1_1.index t (1 : Fin 3) * 512 + 1 * kk.val = s.val; omega
  | ⟨2, _⟩ => show win1_1.index t (2 : Fin 3) * 1024 + 1 * h.val = h.val; omega

/-- Row `kk` of the value tile at point `t` is row `512·(t%4) + kk` of batch `t/8` of the value array. -/
theorem iblk1_2_apply (c : Dev nD) (t : Fin cfg1.N) (kk : Fin 512) (o : Fin 1024) (b : Fin 4) (s : Fin 2048)
    (hb : b.val = t.val / 8) (hs : s.val = 512 * (t.val % 4) + kk.val) :
    iblk1 V c 2 t (ix3 (0 : Fin 1) kk o) = (V c main_v15 : S4x2048x1024.Idx → EReal) (ix3 b s o) := by
  obtain ⟨-, -, ⟨e0, e1, e2⟩, -⟩ := idx_facts1 t
  show (V c main_v15 : S4x2048x1024.Idx → EReal) (((cfg1.win 2).blk t).view.emb (ix3 (0 : Fin 1) kk o)) = _
  refine congrArg _ (funext fun a => Fin.ext ?_)
  match a with
  | ⟨0, _⟩ => show win1_2.index t (0 : Fin 3) * 1 + 1 * 0 = b.val; omega
  | ⟨1, _⟩ => show win1_2.index t (1 : Fin 3) * 512 + 1 * kk.val = s.val; omega
  | ⟨2, _⟩ => show win1_2.index t (2 : Fin 3) * 1024 + 1 * o.val = o.val; omega

/-! ## One query row through the four tiles -/

/-- The scores of query row `sq` of batch `b` against the keys of tile `j`. -/
def scoreOf (Q K : S4x2048x1024.Idx → EReal) (b : Fin 4) (sq : Fin 2048) (j : Fin 4) (kk : Fin 512) : EReal :=
  Cert.Spec.dotq (fun h => Q (ix3 b sq h)) (fun h => K (ix3 b (Cert.Spec.tile j kk) h))

/-- The value rows of tile `j` of batch `b`. -/
def valOf (Vv : S4x2048x1024.Idx → EReal) (b : Fin 4) (j : Fin 4) (kk : Fin 512) (o : Fin 1024) : EReal :=
  Vv (ix3 b (Cert.Spec.tile j kk) o)

/-- One tile step on the blocks of point `u`, read at row `r`: the step of the running softmax on the scores of query row
    `1024·((u/4)%2) + r` against key tile `u % 4`, and that tile's values, all of batch `u/8`. -/
theorem blkStep_row (c : Dev nD) (Q K Vv : S4x2048x1024.Idx → EReal)
    (hQ : (V c main_v13 : S4x2048x1024.Idx → EReal) = Q) (hK : (V c main_v14 : S4x2048x1024.Idx → EReal) = K)
    (hV : (V c main_v15 : S4x2048x1024.Idx → EReal) = Vv) (u : Fin cfg1.N) (sc : Sc Ideal) (r : Fin 1024)
    (b : Fin 4) (sq : Fin 2048) (j : Fin 4)
    (hb : b.val = u.val / 8) (hsq : sq.val = 1024 * ((u.val / 4) % 2) + r.val) (hj : j.val = u.val % 4) :
    rowSt (blkStep V c u sc) r = Cert.Spec.fstep (rowSt sc r) (scoreOf Q K b sq j) (valOf Vv b j) := by
  unfold blkStep
  rw [stepSc_row]
  have hs : (fun kk => Cert.Spec.dotq (fun h => iblk1 V c 0 u (ix3 (0 : Fin 1) r h)) (fun h => iblk1 V c 1 u (ix3 (0 : Fin 1) kk h)))
      = scoreOf Q K b sq j := by
    funext kk
    unfold scoreOf
    have e0 : (fun h => iblk1 V c 0 u (ix3 (0 : Fin 1) r h)) = fun h => Q (ix3 b sq h) := by
      funext h; rw [iblk1_0_apply V c u r h b sq hb hsq, hQ]
    have e1 : (fun h => iblk1 V c 1 u (ix3 (0 : Fin 1) kk h)) = fun h => K (ix3 b (Cert.Spec.tile j kk) h) := by
      funext h
      rw [iblk1_1_apply V c u kk h b (Cert.Spec.tile j kk) hb (by show j.val * 512 + kk.val = _; omega), hK]
    rw [e0, e1]
  have hv : (fun kk o => iblk1 V c 2 u (ix3 (0 : Fin 1) kk o)) = valOf Vv b j := by
    funext kk o
    unfold valOf
    rw [iblk1_2_apply V c u kk o b (Cert.Spec.tile j kk) hb (by show j.val * 512 + kk.val = _; omega), hV]
  rw [hs, hv]

/-- The scratch after tile `n` of a query block (point `u` with `u % 4 = n`), read at row `r`, is the running softmax over
    tiles `0 … n`: by induction on `n`, the first tile stepping from the reset values, a later tile from what the point
    before left — and the point before is a tile of the same batch and query block. -/
theorem scAt_row (c : Dev nD) (Q K Vv : S4x2048x1024.Idx → EReal)
    (hQ : (V c main_v13 : S4x2048x1024.Idx → EReal) = Q) (hK : (V c main_v14 : S4x2048x1024.Idx → EReal) = K)
    (hV : (V c main_v15 : S4x2048x1024.Idx → EReal) = Vv) (r : Fin 1024) (b : Fin 4) (sq : Fin 2048) :
    ∀ (n : Nat) (hn : n + 1 ≤ 4) (u : Fin cfg1.N), u.val % 4 = n → b.val = u.val / 8 → sq.val = 1024 * ((u.val / 4) % 2) + r.val →
      rowSt (scAt V c u) r = Cert.Spec.frun (scoreOf Q K b sq) (valOf Vv b) (n + 1) hn
  | 0, hn, u, hu, hb, hsq => by
    rw [scAt_first V c u hu, blkStep_row V c Q K Vv hQ hK hV u _ r b sq ⟨0, hn⟩ hb hsq hu.symm, initSc_row]
    rfl
  | n + 1, hn, u, hu, hb, hsq => by
    have hu0 : ¬u.val % 4 = 0 := by omega
    rw [scAt_next V c u hu0, blkStep_row V c Q K Vv hQ hK hV u _ r b sq ⟨n + 1, hn⟩ hb hsq hu.symm,
      scAt_row c Q K Vv hQ hK hV r b sq n (Nat.le_of_succ_le hn) ⟨u.val - 1, Nat.lt_of_le_of_lt (Nat.sub_le _ _) u.isLt⟩
        (by show (u.val - 1) % 4 = n; omega) (by show b.val = (u.val - 1) / 8; omega)
        (by show sq.val = 1024 * (((u.val - 1) / 4) % 2) + r.val; omega)]
    rfl

/-! ## The result array -/

/-- The result as ONE function of the three argument arrays: at `(b, s, o)` numerator over denominator of the running
    softmax of query row `s` of batch `b` over the four key tiles of that batch. -/
def flashArr (Q K Vv : S4x2048x1024.Idx → EReal) : S4x2048x1024.Idx → EReal :=
  fun i => Cert.Spec.fout (Cert.Spec.frun
    (scoreOf Q K (⟨(i 0).val, (i 0).isLt⟩ : Fin 4) (⟨(i 1).val, (i 1).isLt⟩ : Fin 2048))
    (valOf Vv (⟨(i 0).val, (i 0).isLt⟩ : Fin 4)) 4 (Nat.le_refl 4)) (⟨(i 2).val, (i 2).isLt⟩ : Fin 1024)

theorem flashArr_apply (Q K Vv : S4x2048x1024.Idx → EReal) (b : Fin 4) (s : Fin 2048) (o : Fin 1024) :
    flashArr Q K Vv (ix3 b s o)
      = Cert.Spec.fout (Cert.Spec.frun (scoreOf Q K b s) (valOf Vv b) 4 (Nat.le_refl 4)) o := rfl

/-- What a last-tile point `t` writes back is its block of the result function: rows `1024·((t/4)%2) …` of batch `t/8`. -/
theorem flushed1_3_eq (c : Dev nD) (Q K Vv : S4x2048x1024.Idx → EReal)
    (hQ : (V c main_v13 : S4x2048x1024.Idx → EReal) = Q) (hK : (V c main_v14 : S4x2048x1024.Idx → EReal) = K)
    (hV : (V c main_v15 : S4x2048x1024.Idx → EReal) = Vv) (t : Fin cfg1.N) (h3 : t.val % 4 = 3) :
    (dat1 V c).flushed 3 t = ((cfg1.win 3).blk t).view.read (Elt Ideal) (flashArr Q K Vv) := by
  show (cfg1.win 3).cut (grid1.coords t) ((dat1 V c).after 3 t) = _
  rw [after1_3]
  funext y
  obtain ⟨z, r, o, rfl⟩ : ∃ (z : Fin 1) (r : Fin 1024) (o : Fin 1024), y = ix3 z r o := ⟨y 0, y 1, y 2, eq_ix3 y⟩
  obtain rfl : z = 0 := Subsingleton.elim _ _
  obtain ⟨-, -, -, ew0, ew1, ew2⟩ := idx_facts1 t
  have hN : cfg1.N = 32 := N_1
  have hB : t.val / 8 < 4 := by have := t.isLt; omega
  have hS : 1024 * ((t.val / 4) % 2) + r.val < 2048 := by have := r.isLt; omega
  show (outsAt1 V c t.val t.isLt).1 (ix3 (0 : Fin 1) r o) = flashArr Q K Vv (((cfg1.win 3).blk t).view.emb (ix3 (0 : Fin 1) r o))
  have hemb : ((cfg1.win 3).blk t).view.emb (ix3 (0 : Fin 1) r o)
      = ix3 (⟨t.val / 8, hB⟩ : Fin 4) (⟨1024 * ((t.val / 4) % 2) + r.val, hS⟩ : Fin 2048) o := funext fun a => Fin.ext (by
    match a with
    | ⟨0, _⟩ => show win1_3.index t (0 : Fin 3) * 1 + 1 * 0 = t.val / 8; omega
    | ⟨1, _⟩ => show win1_3.index t (1 : Fin 3) * 1024 + 1 * r.val = 1024 * ((t.val / 4) % 2) + r.val; omega
    | ⟨2, _⟩ => show win1_3.index t (2 : Fin 3) * 1024 + 1 * o.val = o.val; omega)
  rw [hemb, flashArr_apply, out_last V c t h3, outO_apply]
  show Cert.Spec.fout (rowSt (scAt V c t) r) o = _
  rw [scAt_row V c Q K Vv hQ hK hV r ⟨t.val / 8, hB⟩ ⟨1024 * ((t.val / 4) % 2) + r.val, hS⟩ 3 (Nat.le_refl 4) t h3 rfl rfl]

/-- An index of the result array is in point `t`'s block iff each coordinate is in the block's range on its axis. -/
theorem mem_blk1_3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v16).slice (win1_3.rect t)).set ↔ _
  rw [View.set_slice_whole, Rect.mem_set_unit]
  exact Iff.rfl

/-- Row `s` of batch `b` lies in the block written back at the last tile of query block `s / 1024`: point `8·b + 4·(s/1024) + 3`. -/
theorem cover1_3 (i : S4x2048x1024.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 32 := N_1
  obtain ⟨t, ht⟩ : ∃ t : Fin cfg1.N, t.val = 8 * (i 0).val + 4 * ((i 1).val / 1024) + 3 :=
    ⟨⟨8 * (i 0).val + 4 * ((i 1).val / 1024) + 3, by omega⟩, rfl⟩
  obtain ⟨-, -, -, ew0, ew1, ew2⟩ := idx_facts1 t
  refine ⟨t, (flush1_3 t).2 (by omega), ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

theorem arr1_3 (c : Dev nD) (Q K Vv : S4x2048x1024.Idx → EReal)
    (hQ : (V c main_v13 : S4x2048x1024.Idx → EReal) = Q) (hK : (V c main_v14 : S4x2048x1024.Idx → EReal) = K)
    (hV : (V c main_v15 : S4x2048x1024.Idx → EReal) = Vv) (b : Fin 4) (s : Fin 2048) (o : Fin 1024) :
    ((dat1 V c).arrAt 3 cfg1.N : S4x2048x1024.Idx → EReal) (ix3 b s o)
      = Cert.Spec.fout (Cert.Spec.frun
          (fun j k => Cert.Spec.dotq (fun h => Q (ix3 b s h)) (fun h => K (ix3 b (Cert.Spec.tile j k) h)))
          (fun j k o' => Vv (ix3 b (Cert.Spec.tile j k) o')) 4 (Nat.le_refl 4)) o := by
  have h := (dat1 V c).arrAt_eq_of_cover 3 (flashArr Q K Vv)
    (fun t ht => flushed1_3_eq V c Q K Vv hQ hK hV t ((flush1_3 t).1 ht)) cover1_3
  exact (congrFun h (ix3 b s o)).trans (flashArr_apply Q K Vv b s o)

end Cert.KernelIdeal.Hand

end
-- ==== Proof.KI.Host.lean ====
/-
  The kernel program's two host stretches, read at an index on the extended reals.

  Before the projection region: the input is flattened to 8192 rows; the three weight matrices are transposed, the query one
  scaled by `2⁻⁵`, and laid side by side as 3072 columns; the three biases, the query one scaled, are laid end to end as one
  row. Between the regions: each projection output is cut back into 4 batches of 2048 rows.
-/
import proofs.«402570_j23785528885493_3_alg».proof.Proof.Gen.KernelIdeal.Launch
import proofs.«402570_j23785528885493_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.ValueIdx Idealize.SL.Sem

/-- Column `o` of third `j` among the 3072 concatenated columns. -/
def col3' (j : Fin 3) (o : Fin 1024) : Fin 3072 := ⟨j.val * 1024 + o.val, by have := j.isLt; have := o.isLt; omega⟩

/-- Row `s` of batch `b` among the 8192 flattened rows. -/
def row4 (b : Fin 4) (s : Fin 2048) : Fin 8192 := ⟨b.val * 2048 + s.val, by have := b.isLt; have := s.isLt; omega⟩

/-! ## Layout operations at explicit coordinates -/

/-- Flattening `[4, 2048, 1024]` to `[8192, 1024]`: row `b·2048 + s` is row `s` of batch `b`. -/
theorem flatten_apply (x : S4x2048x1024.Idx → EReal) (hc : S4x2048x1024.ShapeCasts S8192x1024) (b : Fin 4) (s : Fin 2048) (h : Fin 1024) :
    shapeCast S8192x1024 x hc (ix2 (row4 b s) h) = x (ix3 b s h) := by
  refine shapeCast_apply _ _ _ _ ?_
  show ((⟨3, ![4, 2048, 1024]⟩ : Shape).rowMajor (ix3 b s h)).val = ((⟨2, ![8192, 1024]⟩ : Shape).rowMajor (ix2 (row4 b s) h)).val
  rw [Shape.rowMajor_val_three, Shape.rowMajor_val_two]
  rfl

/-- Cutting `[8192, 1024]` back into `[4, 2048, 1024]`: row `s` of batch `b` is row `b·2048 + s`. -/
theorem unflatten_apply (x : S8192x1024.Idx → EReal) (hc : S8192x1024.ShapeCasts S4x2048x1024) (b : Fin 4) (s : Fin 2048) (h : Fin 1024) :
    shapeCast S4x2048x1024 x hc (ix3 b s h) = x (ix2 (row4 b s) h) := by
  refine shapeCast_apply _ _ _ _ ?_
  show ((⟨2, ![8192, 1024]⟩ : Shape).rowMajor (ix2 (row4 b s) h)).val = ((⟨3, ![4, 2048, 1024]⟩ : Shape).rowMajor (ix3 b s h)).val
  rw [Shape.rowMajor_val_three, Shape.rowMajor_val_two]
  rfl

/-- Three `[1024, 1024]` matrices laid side by side: column `j·1024 + o` of the result is column `o` of piece `j`. -/
theorem cat3_cols (A B C : S1024x1024.Idx → EReal) (hc : Shape.Concatenates [S1024x1024, S1024x1024, S1024x1024] S1024x3072 1)
    (h o : Fin 1024) :
    concatenate S1024x3072 1 [⟨S1024x1024, A⟩, ⟨S1024x1024, B⟩, ⟨S1024x1024, C⟩] hc (ix2 h (col3' 0 o)) = A (ix2 h o)
    ∧ concatenate S1024x3072 1 [⟨S1024x1024, A⟩, ⟨S1024x1024, B⟩, ⟨S1024x1024, C⟩] hc (ix2 h (col3' 1 o)) = B (ix2 h o)
    ∧ concatenate S1024x3072 1 [⟨S1024x1024, A⟩, ⟨S1024x1024, B⟩, ⟨S1024x1024, C⟩] hc (ix2 h (col3' 2 o)) = C (ix2 h o) := by
  refine ⟨?_, ?_, ?_⟩
  · refine concatenate_apply_piece 1 [⟨S1024x1024, A⟩, ⟨S1024x1024, B⟩, ⟨S1024x1024, C⟩] hc _ 0 (show (0 : Nat) < 3 by decide) S1024x1024 A rfl rfl 0 rfl (ix2 h o)
      (fun b hb => match b, hb with | ⟨0, _⟩, _ => rfl | ⟨1, _⟩, hb => absurd rfl hb) ?_
    show 0 + o.val = 0 * 1024 + o.val
    omega
  · refine concatenate_apply_piece 1 [⟨S1024x1024, A⟩, ⟨S1024x1024, B⟩, ⟨S1024x1024, C⟩] hc _ 1 (show (1 : Nat) < 3 by decide) S1024x1024 B rfl rfl 1024 rfl (ix2 h o)
      (fun b hb => match b, hb with | ⟨0, _⟩, _ => rfl | ⟨1, _⟩, hb => absurd rfl hb) ?_
    show 1024 + o.val = 1 * 1024 + o.val
    omega
  · refine concatenate_apply_piece 1 [⟨S1024x1024, A⟩, ⟨S1024x1024, B⟩, ⟨S1024x1024, C⟩] hc _ 2 (show (2 : Nat) < 3 by decide) S1024x1024 C rfl rfl 2048 rfl (ix2 h o)
      (fun b hb => match b, hb with | ⟨0, _⟩, _ => rfl | ⟨1, _⟩, hb => absurd rfl hb) ?_
    show 2048 + o.val = 2 * 1024 + o.val
    omega

/-- Three vectors of 1024 laid end to end: entry `j·1024 + o` of the result is entry `o` of piece `j`. -/
theorem cat3_row (A B C : S1024.Idx → EReal) (hc : Shape.Concatenates [S1024, S1024, S1024] S3072 0) (o : Fin 1024) :
    concatenate S3072 0 [⟨S1024, A⟩, ⟨S1024, B⟩, ⟨S1024, C⟩] hc (ix1 (col3' 0 o)) = A (ix1 o)
    ∧ concatenate S3072 0 [⟨S1024, A⟩, ⟨S1024, B⟩, ⟨S1024, C⟩] hc (ix1 (col3' 1 o)) = B (ix1 o)
    ∧ concatenate S3072 0 [⟨S1024, A⟩, ⟨S1024, B⟩, ⟨S1024, C⟩] hc (ix1 (col3' 2 o)) = C (ix1 o) := by
  refine ⟨?_, ?_, ?_⟩
  · refine concatenate_apply_piece 0 [⟨S1024, A⟩, ⟨S1024, B⟩, ⟨S1024, C⟩] hc _ 0 (show (0 : Nat) < 3 by decide) S1024 A rfl rfl 0 rfl (ix1 o)
      (fun b hb => match b, hb with | ⟨0, _⟩, hb => absurd rfl hb) ?_
    show 0 + o.val = 0 * 1024 + o.val
    omega
  · refine concatenate_apply_piece 0 [⟨S1024, A⟩, ⟨S1024, B⟩, ⟨S1024, C⟩] hc _ 1 (show (1 : Nat) < 3 by decide) S1024 B rfl rfl 1024 rfl (ix1 o)
      (fun b hb => match b, hb with | ⟨0, _⟩, hb => absurd rfl hb) ?_
    show 1024 + o.val = 1 * 1024 + o.val
    omega
  · refine concatenate_apply_piece 0 [⟨S1024, A⟩, ⟨S1024, B⟩, ⟨S1024, C⟩] hc _ 2 (show (2 : Nat) < 3 by decide) S1024 C rfl rfl 2048 rfl (ix1 o)
      (fun b hb => match b, hb with | ⟨0, _⟩, hb => absurd rfl hb) ?_
    show 2048 + o.val = 2 * 1024 + o.val
    omega

/-- The folded scale as a broadcast scalar: at every index it is the f32 word of `2⁻⁵`. -/
theorem bcast_c32_mat (hb : S_.BroadcastsInDim S1024x1024 (![] : Fin 0 → Fin S1024x1024.rank)) (i : S1024x1024.Idx) :
    broadcastInDim S1024x1024 ![] hb (constant (F := Ideal) S_ .f32 0x3D000000#32) i = Cert.Spec.c32 :=
  broadcastInDim_apply _ hb _ i (fun a => a.elim0) (fun a => a.elim0)

theorem bcast_c32_vec (hb : S_.BroadcastsInDim S1024 (![] : Fin 0 → Fin S1024.rank)) (i : S1024.Idx) :
    broadcastInDim S1024 ![] hb (constant (F := Ideal) S_ .f32 0x3D000000#32) i = Cert.Spec.c32 :=
  broadcastInDim_apply _ hb _ i (fun a => a.elim0) (fun a => a.elim0)

variable (W : Valuation τ sig (Elt Ideal))

/-- The flattened input: row `row4 b s` is row `s` of batch `b`. -/
theorem host0_v0 (b : Fin 4) (s : Fin 2048) (h : Fin 1024) :
    (StableHlo.after hostOps0 W (Proc.devRef .tc main_v0) : S8192x1024.Idx → EReal) (ix2 (row4 b s) h)
      = (W (Proc.devRef .tc main_arg0) : S4x2048x1024.Idx → EReal) (ix3 b s h) := by
  have e : (StableHlo.after hostOps0 W (Proc.devRef .tc main_v0) : S8192x1024.Idx → EReal)
      = shapeCast S8192x1024 (W (Proc.devRef .tc main_arg0) : S4x2048x1024.Idx → EReal) shapeCasts_S4x2048x1024_S8192x1024 := by
    simp only [hostOps0]; after_results; rfl
  rw [e]
  exact flatten_apply _ _ b s h

/-- The concatenated weights: the query third transposed and scaled, the key and value thirds transposed. -/
theorem host0_v7 (h o : Fin 1024) :
    (StableHlo.after hostOps0 W (Proc.devRef .tc main_v7) : S1024x3072.Idx → EReal) (ix2 h (col3' 0 o))
        = @HMul.hMul EReal EReal EReal _ ((W (Proc.devRef .tc main_arg1) : S1024x1024.Idx → EReal) (ix2 o h)) Cert.Spec.c32
    ∧ (StableHlo.after hostOps0 W (Proc.devRef .tc main_v7) : S1024x3072.Idx → EReal) (ix2 h (col3' 1 o))
        = (W (Proc.devRef .tc main_arg3) : S1024x1024.Idx → EReal) (ix2 o h)
    ∧ (StableHlo.after hostOps0 W (Proc.devRef .tc main_v7) : S1024x3072.Idx → EReal) (ix2 h (col3' 2 o))
        = (W (Proc.devRef .tc main_arg5) : S1024x1024.Idx → EReal) (ix2 o h) := by
  have e : (StableHlo.after hostOps0 W (Proc.devRef .tc main_v7) : S1024x3072.Idx → EReal)
      = concatenate S1024x3072 1
          [⟨S1024x1024, mulf (transpose S1024x1024 [1, 0] (W (Proc.devRef .tc main_arg1) : S1024x1024.Idx → EReal) transposes_S1024x1024_S1024x1024_1_0)
              (broadcastInDim S1024x1024 ![] bcast_S_S1024x1024 (constant (F := Ideal) S_ .f32 0x3D000000#32))⟩,
           ⟨S1024x1024, transpose S1024x1024 [1, 0] (W (Proc.devRef .tc main_arg3) : S1024x1024.Idx → EReal) transposes_S1024x1024_S1024x1024_1_0⟩,
           ⟨S1024x1024, transpose S1024x1024 [1, 0] (W (Proc.devRef .tc main_arg5) : S1024x1024.Idx → EReal) transposes_S1024x1024_S1024x1024_1_0⟩]
          concatenates_S1024x1024_S1024x1024_S1024x1024_S1024x3072_d1 := by
    simp only [hostOps0]; after_results; rfl
  rw [e]
  obtain ⟨h0, h1, h2⟩ := cat3_cols _ _ _ concatenates_S1024x1024_S1024x1024_S1024x1024_S1024x3072_d1 h o
  refine ⟨?_, ?_, ?_⟩
  · rw [h0, mulf_apply, transpose_ix2_apply, bcast_c32_mat]
  · rw [h1, transpose_ix2_apply]
  · rw [h2, transpose_ix2_apply]

/-- The concatenated bias row: the query third scaled. -/
theorem host0_v11 (o : Fin 1024) :
    (StableHlo.after hostOps0 W (Proc.devRef .tc main_v11) : S1x3072.Idx → EReal) (ix2 (0 : Fin 1) (col3' 0 o))
        = @HMul.hMul EReal EReal EReal _ ((W (Proc.devRef .tc main_arg2) : S1024.Idx → EReal) (ix1 o)) Cert.Spec.c32
    ∧ (StableHlo.after hostOps0 W (Proc.devRef .tc main_v11) : S1x3072.Idx → EReal) (ix2 (0 : Fin 1) (col3' 1 o))
        = (W (Proc.devRef .tc main_arg4) : S1024.Idx → EReal) (ix1 o)
    ∧ (StableHlo.after hostOps0 W (Proc.devRef .tc main_v11) : S1x3072.Idx → EReal) (ix2 (0 : Fin 1) (col3' 2 o))
        = (W (Proc.devRef .tc main_arg6) : S1024.Idx → EReal) (ix1 o) := by
  have e : (StableHlo.after hostOps0 W (Proc.devRef .tc main_v11) : S1x3072.Idx → EReal)
      = shapeCast S1x3072
          (concatenate S3072 0
            [⟨S1024, mulf (W (Proc.devRef .tc main_arg2) : S1024.Idx → EReal)
                (broadcastInDim S1024 ![] bcast_S_S1024 (constant (F := Ideal) S_ .f32 0x3D000000#32))⟩,
             ⟨S1024, (W (Proc.devRef .tc main_arg4) : S1024.Idx → EReal)⟩,
             ⟨S1024, (W (Proc.devRef .tc main_arg6) : S1024.Idx → EReal)⟩]
            concatenates_S1024_S1024_S1024_S3072_d0) shapeCasts_S3072_S1x3072 := by
    simp only [hostOps0]; after_results; rfl
  rw [e]
  obtain ⟨h0, h1, h2⟩ := cat3_row (mulf (W (Proc.devRef .tc main_arg2) : S1024.Idx → EReal)
      (broadcastInDim S1024 ![] bcast_S_S1024 (constant (F := Ideal) S_ .f32 0x3D000000#32)))
    (W (Proc.devRef .tc main_arg4) : S1024.Idx → EReal) (W (Proc.devRef .tc main_arg6) : S1024.Idx → EReal) concatenates_S1024_S1024_S1024_S3072_d0 o
  refine ⟨?_, ?_, ?_⟩
  · rw [shapeCast_a_1a_apply, h0, mulf_apply, bcast_c32_vec]
  · rw [shapeCast_a_1a_apply, h1]
  · rw [shapeCast_a_1a_apply, h2]

/-- Between the regions: each projection output cut back into batches. -/
theorem host1_v13 (b : Fin 4) (s : Fin 2048) (h : Fin 1024) :
    (StableHlo.after hostOps1 W (Proc.devRef .tc main_v13) : S4x2048x1024.Idx → EReal) (ix3 b s h)
      = (W (Proc.devRef .tc main_v12_0) : S8192x1024.Idx → EReal) (ix2 (row4 b s) h) := by
  have e : (StableHlo.after hostOps1 W (Proc.devRef .tc main_v13) : S4x2048x1024.Idx → EReal)
      = shapeCast S4x2048x1024 (W (Proc.devRef .tc main_v12_0) : S8192x1024.Idx → EReal) shapeCasts_S8192x1024_S4x2048x1024 := by
    simp only [hostOps1]; after_results; rfl
  rw [e]
  exact unflatten_apply _ _ b s h
theorem host1_v14 (b : Fin 4) (s : Fin 2048) (h : Fin 1024) :
    (StableHlo.after hostOps1 W (Proc.devRef .tc main_v14) : S4x2048x1024.Idx → EReal) (ix3 b s h)
      = (W (Proc.devRef .tc main_v12_1) : S8192x1024.Idx → EReal) (ix2 (row4 b s) h) := by
  have e : (StableHlo.after hostOps1 W (Proc.devRef .tc main_v14) : S4x2048x1024.Idx → EReal)
      = shapeCast S4x2048x1024 (W (Proc.devRef .tc main_v12_1) : S8192x1024.Idx → EReal) shapeCasts_S8192x1024_S4x2048x1024 := by
    simp only [hostOps1]; after_results; rfl
  rw [e]
  exact unflatten_apply _ _ b s h
theorem host1_v15 (b : Fin 4) (s : Fin 2048) (h : Fin 1024) :
    (StableHlo.after hostOps1 W (Proc.devRef .tc main_v15) : S4x2048x1024.Idx → EReal) (ix3 b s h)
      = (W (Proc.devRef .tc main_v12_2) : S8192x1024.Idx → EReal) (ix2 (row4 b s) h) := by
  have e : (StableHlo.after hostOps1 W (Proc.devRef .tc main_v15) : S4x2048x1024.Idx → EReal)
      = shapeCast S4x2048x1024 (W (Proc.devRef .tc main_v12_2) : S8192x1024.Idx → EReal) shapeCasts_S8192x1024_S4x2048x1024 := by
    simp only [hostOps1]; after_results; rfl
  rw [e]
  exact unflatten_apply _ _ b s h

end Cert.KernelIdeal.Hand

end
-- ==== Proof.KI.Value.lean ====
/-
  The kernel program's result array, read at an index, is `Spec.kernelOut` of the argument arrays: the flash region's array
  value over the reshaped projection outputs, each of which is the projection region's array value over what the first host
  stretch lays out — the flattened input, the concatenated (query-scaled) transposed weights and the concatenated bias row.
-/
import proofs.«402570_j23785528885493_3_alg».proof.Proof.KI.Run
import proofs.«402570_j23785528885493_3_alg».proof.Proof.KI.Val0Arr
import proofs.«402570_j23785528885493_3_alg».proof.Proof.KI.Val1Arr
import proofs.«402570_j23785528885493_3_alg».proof.Proof.KI.Host
import proofs.«402570_j23785528885493_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The argument arrays of core `c` by coordinates. -/
def aX (c : Dev nD) : Fin 4 → Fin 2048 → Fin 1024 → EReal :=
  fun b s h => (m ((c.tc : Thread nD τ).loc main_arg0) : S4x2048x1024.Idx → EReal) (ix3 b s h)
def aWq (c : Dev nD) : Fin 1024 → Fin 1024 → EReal := fun o h => (m ((c.tc : Thread nD τ).loc main_arg1) : S1024x1024.Idx → EReal) (ix2 o h)
def abq (c : Dev nD) : Fin 1024 → EReal := fun o => (m ((c.tc : Thread nD τ).loc main_arg2) : S1024.Idx → EReal) (ix1 o)
def aWk (c : Dev nD) : Fin 1024 → Fin 1024 → EReal := fun o h => (m ((c.tc : Thread nD τ).loc main_arg3) : S1024x1024.Idx → EReal) (ix2 o h)
def abk (c : Dev nD) : Fin 1024 → EReal := fun o => (m ((c.tc : Thread nD τ).loc main_arg4) : S1024.Idx → EReal) (ix1 o)
def aWv (c : Dev nD) : Fin 1024 → Fin 1024 → EReal := fun o h => (m ((c.tc : Thread nD τ).loc main_arg5) : S1024x1024.Idx → EReal) (ix2 o h)
def abv (c : Dev nD) : Fin 1024 → EReal := fun o => (m ((c.tc : Thread nD τ).loc main_arg6) : S1024.Idx → EReal) (ix1 o)

/-- The flattened input row `row4 b s` as the projection region finds it. -/
theorem v0_at (c : Dev nD) (b : Fin 4) (s : Fin 2048) (h : Fin 1024) :
    (V1 m ρ c main_v0 : S8192x1024.Idx → EReal) (ix2 (row4 b s) h) = aX m c b s h :=
  host0_v0 (W0 m ρ c) b s h

/-- A projection output, cut back into batches, at row `s` of batch `b`: the query third with scaled weights and bias. -/
theorem q_at (c : Dev nD) (b : Fin 4) (s : Fin 2048) (h : Fin 1024) :
    (V3 m ρ c main_v13 : S4x2048x1024.Idx → EReal) (ix3 b s h) = Cert.Spec.linS (aX m c b s) (aWq m c) (abq m c) h := by
  refine (host1_v13 (W2 m ρ c) b s h).trans ?_
  refine (congrFun (W2_arr m ρ c 3) (ix2 (row4 b s) h)).trans ?_
  refine (arr0_3 (V1 m ρ) c _ _ _ rfl rfl rfl (row4 b s) h).trans ?_
  unfold Cert.Spec.linS
  refine congrArg₂ (· + ·) (Finset.sum_congr rfl fun h' _ => ?_) ?_
  · exact congrArg₂ (· * ·) (v0_at m ρ c b s h') (host0_v7 (W0 m ρ c) h' h).1
  · exact (host0_v11 (W0 m ρ c) h).1

/-- The key third. -/
theorem k_at (c : Dev nD) (b : Fin 4) (s : Fin 2048) (h : Fin 1024) :
    (V3 m ρ c main_v14 : S4x2048x1024.Idx → EReal) (ix3 b s h) = Cert.Spec.lin (aX m c b s) (aWk m c) (abk m c) h := by
  refine (host1_v14 (W2 m ρ c) b s h).trans ?_
  refine (congrFun (W2_arr m ρ c 4) (ix2 (row4 b s) h)).trans ?_
  refine (arr0_4 (V1 m ρ) c _ _ _ rfl rfl rfl (row4 b s) h).trans ?_
  unfold Cert.Spec.lin
  refine congrArg₂ (· + ·) (Finset.sum_congr rfl fun h' _ => ?_) ?_
  · exact congrArg₂ (· * ·) (v0_at m ρ c b s h') (host0_v7 (W0 m ρ c) h' h).2.1
  · exact (host0_v11 (W0 m ρ c) h).2.1

/-- The value third. -/
theorem v_at (c : Dev nD) (b : Fin 4) (s : Fin 2048) (h : Fin 1024) :
    (V3 m ρ c main_v15 : S4x2048x1024.Idx → EReal) (ix3 b s h) = Cert.Spec.lin (aX m c b s) (aWv m c) (abv m c) h := by
  refine (host1_v15 (W2 m ρ c) b s h).trans ?_
  refine (congrFun (W2_arr m ρ c 5) (ix2 (row4 b s) h)).trans ?_
  refine (arr0_5 (V1 m ρ) c _ _ _ rfl rfl rfl (row4 b s) h).trans ?_
  unfold Cert.Spec.lin
  refine congrArg₂ (· + ·) (Finset.sum_congr rfl fun h' _ => ?_) ?_
  · exact congrArg₂ (· * ·) (v0_at m ρ c b s h') (host0_v7 (W0 m ρ c) h' h).2.2
  · exact (host0_v11 (W0 m ρ c) h).2.2

theorem kernel_value (c : Dev nD) (b : Fin 4) (s : Fin 2048) (o : Fin 1024) :
    ((dat1 (V3 m ρ) c).arrAt 3 cfg1.N : S4x2048x1024.Idx → EReal) (ix3 b s o)
      = Cert.Spec.kernelOut (aX m c) (aWq m c) (abq m c) (aWk m c) (abk m c) (aWv m c) (abv m c) b s o := by
  refine (arr1_3 (V3 m ρ) c _ _ _ rfl rfl rfl b s o).trans ?_
  unfold Cert.Spec.kernelOut
  have hs : (fun (j : Fin 4) (k : Fin 512) =>
        Cert.Spec.dotq (fun h => (V3 m ρ c main_v13 : S4x2048x1024.Idx → EReal) (ix3 b s h))
          (fun h => (V3 m ρ c main_v14 : S4x2048x1024.Idx → EReal) (ix3 b (Cert.Spec.tile j k) h)))
      = fun j k => Cert.Spec.dotq (Cert.Spec.linS (aX m c b s) (aWq m c) (abq m c))
          (Cert.Spec.lin (aX m c b (Cert.Spec.tile j k)) (aWk m c) (abk m c)) := by
    funext j k
    exact congrArg₂ Cert.Spec.dotq (funext fun h => q_at m ρ c b s h) (funext fun h => k_at m ρ c b (Cert.Spec.tile j k) h)
  have hv : (fun (j : Fin 4) (k : Fin 512) (o' : Fin 1024) =>
        (V3 m ρ c main_v15 : S4x2048x1024.Idx → EReal) (ix3 b (Cert.Spec.tile j k) o'))
      = fun j k o' => Cert.Spec.lin (aX m c b (Cert.Spec.tile j k)) (aWv m c) (abv m c) o' := by
    funext j k o'
    exact v_at m ρ c b (Cert.Spec.tile j k) o'
  exact congrArg₂ (fun sf vf => Cert.Spec.fout (Cert.Spec.frun sf vf 4 (Nat.le_refl 4)) o) hs hv

end Cert.KernelIdeal.Hand

end
-- ==== Proof.RefValue.lean ====
/-
  The reference's result, index by index, is `Spec.refOut` of the argument arrays: the three projections as contractions
  plus broadcast biases, the scores as a batched contraction divided by `sqrt 1024`, the row maximum as a fold of `max`,
  the exponentials, their row sum, the quotient, and the contraction with the values.
-/
import proofs.«402570_j23785528885493_3_alg».proof.Proof.Gen.ReferenceIdeal.Read
import proofs.«402570_j23785528885493_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Read

/-! ## The composed index functions at explicit coordinates -/

/-- A projection's left operand index at (b, s, ·) with contraction coordinate k is (b, s, k). -/
theorem lidx_proj (b : Fin 4) (s : Fin 2048) (h k : Fin 1024) : lidx_main_v0 (ix3 b s h) k = ix3 b s k :=
  funext fun a => Fin.ext (by match a with | ⟨0, _⟩ => rfl | ⟨1, _⟩ => rfl | ⟨2, _⟩ => rfl)

/-- A projection's weight index at output column h with contraction coordinate k is (h, k). -/
theorem ridx_proj (b : Fin 4) (s : Fin 2048) (h k : Fin 1024) : ridx_main_v0 (ix3 b s h) k = ix2 h k :=
  funext fun a => Fin.ext (by match a with | ⟨0, _⟩ => rfl | ⟨1, _⟩ => rfl)

/-- The two broadcasts of a bias read it at the output column. -/
theorem idx_bias (b : Fin 4) (s : Fin 2048) (h : Fin 1024) : idx_main_v1 (idx_main_v2 (ix3 b s h)) = ix1 h :=
  funext fun a => Fin.ext (by match a with | ⟨0, _⟩ => rfl)

/-- The scores' left operand index at (b, s, t): the query row (b, s, k). -/
theorem lidx_score (b : Fin 4) (s t : Fin 2048) (k : Fin 1024) : lidx_main_v12 (ix3 b s t) k = ix3 b s k :=
  funext fun a => Fin.ext (by match a with | ⟨0, _⟩ => rfl | ⟨1, _⟩ => rfl | ⟨2, _⟩ => rfl)

/-- The scores' right operand index at (b, s, t): the key row (b, t, k). -/
theorem ridx_score (b : Fin 4) (s t : Fin 2048) (k : Fin 1024) : ridx_main_v12 (ix3 b s t) k = ix3 b t k :=
  funext fun a => Fin.ext (by match a with | ⟨0, _⟩ => rfl | ⟨1, _⟩ => rfl | ⟨2, _⟩ => rfl)

/-- The row maximum is broadcast back along the key axis: at (b, s, t) it is read at (b, s). -/
theorem idx_rowmax (b : Fin 4) (s t : Fin 2048) : idx_main_v19 (idx_main_v20 (ix3 b s t)) = ix2 b s :=
  funext fun a => Fin.ext (by match a with | ⟨0, _⟩ => rfl | ⟨1, _⟩ => rfl)

/-- The row sum is broadcast back along the key axis: at (b, s, t) it is read at (b, s). -/
theorem idx_rowsum (b : Fin 4) (s t : Fin 2048) : idx_main_v24 (idx_main_v25 (ix3 b s t)) = ix2 b s :=
  funext fun a => Fin.ext (by match a with | ⟨0, _⟩ => rfl | ⟨1, _⟩ => rfl)

/-- The row sum at (b, s) runs over (b, s, k). -/
theorem idx_sum (b : Fin 4) (s k : Fin 2048) : idx_main_v23 (ix2 b s) k = ix3 b s k :=
  funext fun a => Fin.ext (by match a with | ⟨0, _⟩ => rfl | ⟨1, _⟩ => rfl | ⟨2, _⟩ => rfl)

/-- The last contraction's left operand index at (b, s, o): the weight (b, s, k). -/
theorem lidx_out (b : Fin 4) (s : Fin 2048) (o : Fin 1024) (k : Fin 2048) : lidx_main_v27 (ix3 b s o) k = ix3 b s k :=
  funext fun a => Fin.ext (by match a with | ⟨0, _⟩ => rfl | ⟨1, _⟩ => rfl | ⟨2, _⟩ => rfl)

/-- The last contraction's right operand index at (b, s, o): the value (b, k, o). -/
theorem ridx_out (b : Fin 4) (s : Fin 2048) (o : Fin 1024) (k : Fin 2048) : ridx_main_v27 (ix3 b s o) k = ix3 b k o :=
  funext fun a => Fin.ext (by match a with | ⟨0, _⟩ => rfl | ⟨1, _⟩ => rfl | ⟨2, _⟩ => rfl)

/-- The index over (b, s) with key coordinate k put back on the reduced axis is (b, s, k). -/
theorem lift_row (h : S4x2048x2048.Reduces [2] S4x2048) (b : Fin 4) (s : Fin 2048) (k : Fin (S4x2048x2048.size 2)) :
    h.lift (ix2 b s) k = ix3 b s (⟨k.val, k.isLt⟩ : Fin 2048) :=
  funext fun c => Fin.ext (by match c with | ⟨0, _⟩ => rfl | ⟨1, _⟩ => rfl | ⟨2, _⟩ => rfl)

/-! ## The two constants of the reductions -/

/-- The f32 word `0xFF800000` denotes `-∞`. -/
theorem ofBits_neg_inf : Ideal.ofBits .f32 0xFF800000#32 = (⊥ : EReal) := by
  simp [Ideal.ofBits, Ideal.ieee]

/-- The f32 word `0x00000000` denotes `0`. -/
theorem ofBits_zero : Ideal.ofBits .f32 0x00000000#32 = (0 : EReal) := by
  simp [Ideal.ofBits, Ideal.ieee]

/-! ## The stages -/

/-- A projection (contraction with a weight matrix plus the broadcast bias) at (b, s, h) is the linear layer on row (b, s). -/
theorem proj_apply (x0 : (⟨S4x2048x1024, .f32⟩ : BufTy).Contents (Elt Ideal)) (w : (⟨S1024x1024, .f32⟩ : BufTy).Contents (Elt Ideal))
    (c : (⟨S1024, .f32⟩ : BufTy).Contents (Elt Ideal)) (b : Fin 4) (s : Fin 2048) (h : Fin 1024) :
    val_main_v3 (F := Ideal) x0 w c (ix3 b s h)
      = Cert.Spec.lin (fun h => x0 (ix3 b s h)) (fun o h => w (ix2 o h)) (fun o => c (ix1 o)) h := by
  rw [val_main_v3_apply, val_main_v0_apply, val_main_v2_apply, val_main_v1_apply, idx_bias, Ideal.addf_def]
  unfold Cert.Spec.lin
  exact congrArg (fun z => z + c (ix1 h)) (Finset.sum_congr rfl fun k _ => by rw [lidx_proj, ridx_proj])

/-- The key projection is the same function of its arguments. -/
theorem proj_apply_k (x0 : (⟨S4x2048x1024, .f32⟩ : BufTy).Contents (Elt Ideal)) (w : (⟨S1024x1024, .f32⟩ : BufTy).Contents (Elt Ideal))
    (c : (⟨S1024, .f32⟩ : BufTy).Contents (Elt Ideal)) (b : Fin 4) (s : Fin 2048) (h : Fin 1024) :
    val_main_v7 (F := Ideal) x0 w c (ix3 b s h)
      = Cert.Spec.lin (fun h => x0 (ix3 b s h)) (fun o h => w (ix2 o h)) (fun o => c (ix1 o)) h :=
  proj_apply x0 w c b s h

/-- The value projection is the same function of its arguments. -/
theorem proj_apply_v (x0 : (⟨S4x2048x1024, .f32⟩ : BufTy).Contents (Elt Ideal)) (w : (⟨S1024x1024, .f32⟩ : BufTy).Contents (Elt Ideal))
    (c : (⟨S1024, .f32⟩ : BufTy).Contents (Elt Ideal)) (b : Fin 4) (s : Fin 2048) (h : Fin 1024) :
    val_main_v11 (F := Ideal) x0 w c (ix3 b s h)
      = Cert.Spec.lin (fun h => x0 (ix3 b s h)) (fun o h => w (ix2 o h)) (fun o => c (ix1 o)) h :=
  proj_apply x0 w c b s h

/-- The scaled score at (b, s, t): the inner product of query row (b, s) and key row (b, t), divided by `sqrt 1024`. -/
theorem score_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s t : Fin 2048) :
    val_main_v15 (F := Ideal) x0 x1 x2 x3 x4 (ix3 b s t)
      = Cert.Spec.refScore (fun b s h => x0 (ix3 b s h)) (fun o h => x1 (ix2 o h)) (fun o => x2 (ix1 o))
          (fun o h => x3 (ix2 o h)) (fun o => x4 (ix1 o)) b s t := by
  rw [val_main_v15_apply, val_main_v12_apply, val_main_v14_apply, val_main_v13_apply, val_main_cst_apply,
    Ideal.hostDivf_def, Ideal.hostUnary_sqrt_def, Ideal.ofBits_def]
  unfold Cert.Spec.refScore Cert.Spec.dotq
  refine congrArg (fun z => Ideal.div z (Ideal.sqrt (Ideal.ofBits .f32 0x44800000#32))) (Finset.sum_congr rfl fun k _ => ?_)
  rw [lidx_score, ridx_score, proj_apply, proj_apply_k]

/-- The row maximum at (b, s): `max` of `-∞` and the fold of `max` from `-∞` over the 2048 scores of the row. -/
theorem max_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s : Fin 2048) :
    val_main_v18 (F := Ideal) x0 x1 x2 x3 x4 (ix2 b s)
      = Cert.Spec.refMax (Cert.Spec.refScore (fun b s h => x0 (ix3 b s h)) (fun o h => x1 (ix2 o h)) (fun o => x2 (ix1 o))
          (fun o h => x3 (ix2 o h)) (fun o => x4 (ix1 o)) b s) := by
  have hred : S4x2048x2048.Reduces [2] S4x2048 := by decide
  rw [val_main_v18_apply, val_main_v17_apply, val_main_cst_1_apply, Ideal.ofBits_def, Ideal.maximumf_def, ofBits_neg_inf]
  unfold val_main_v16 Cert.Spec.refMax
  rw [Host.reduce_eq_fold_single FloatOps.maximumf _ _ _ hred _, val_main_cst_0_apply, Ideal.ofBits_def, ofBits_neg_inf]
  have hf : (val_main_v15 (F := Ideal) x0 x1 x2 x3 x4 ∘ hred.lift (ix2 b s))
      = Cert.Spec.refScore (fun b s h => x0 (ix3 b s h)) (fun o h => x1 (ix2 o h)) (fun o => x2 (ix1 o))
          (fun o h => x3 (ix2 o h)) (fun o => x4 (ix1 o)) b s :=
    funext fun k => (congrArg (val_main_v15 (F := Ideal) x0 x1 x2 x3 x4) (lift_row hred b s k)).trans (score_apply x0 x1 x2 x3 x4 b s ⟨k.val, k.isLt⟩)
  rw [hf]
  rfl

/-- The exponential at (b, s, t): `exp` of the score minus the row maximum. -/
theorem exp_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s t : Fin 2048) :
    val_main_v22 (F := Ideal) x0 x1 x2 x3 x4 (ix3 b s t)
      = Ideal.exp (Cert.Spec.refScore (fun b s h => x0 (ix3 b s h)) (fun o h => x1 (ix2 o h)) (fun o => x2 (ix1 o))
          (fun o h => x3 (ix2 o h)) (fun o => x4 (ix1 o)) b s t
          - Cert.Spec.refMax (Cert.Spec.refScore (fun b s h => x0 (ix3 b s h)) (fun o h => x1 (ix2 o h)) (fun o => x2 (ix1 o))
          (fun o h => x3 (ix2 o h)) (fun o => x4 (ix1 o)) b s)) := by
  rw [val_main_v22_apply, val_main_v21_apply, val_main_v20_apply, val_main_v19_apply, idx_rowmax, Ideal.hostUnary_exp_def,
    Ideal.subf_def, score_apply, max_apply]

/-- The denominator at (b, s, t): zero plus the row's sum of exponentials. -/
theorem den_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (b : Fin 4) (s t : Fin 2048) :
    val_main_v25 (F := Ideal) x0 x1 x2 x3 x4 (ix3 b s t)
      = 0 + ∑ t' : Fin 2048, Ideal.exp (Cert.Spec.refScore (fun b s h => x0 (ix3 b s h)) (fun o h => x1 (ix2 o h)) (fun o => x2 (ix1 o))
          (fun o h => x3 (ix2 o h)) (fun o => x4 (ix1 o)) b s t'
          - Cert.Spec.refMax (Cert.Spec.refScore (fun b s h => x0 (ix3 b s h)) (fun o h => x1 (ix2 o h)) (fun o => x2 (ix1 o))
          (fun o h => x3 (ix2 o h)) (fun o => x4 (ix1 o)) b s)) := by
  rw [val_main_v25_apply, val_main_v24_apply, idx_rowsum, val_main_v23_apply, val_main_cst_2_apply, Ideal.ofBits_def, ofBits_zero]
  exact congrArg (fun z => (0 : EReal) + z) (Finset.sum_congr rfl fun k _ => by rw [idx_sum, exp_apply])

theorem ref_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (b : Fin 4) (s : Fin 2048) (o : Fin 1024) :
    val_main_v27 (F := Ideal) x0 x1 x2 x3 x4 x5 x6 (ix3 b s o)
      = Cert.Spec.refOut (fun b s h => x0 (ix3 b s h)) (fun o h => x1 (ix2 o h)) (fun o => x2 (ix1 o))
          (fun o h => x3 (ix2 o h)) (fun o => x4 (ix1 o)) (fun o h => x5 (ix2 o h)) (fun o => x6 (ix1 o)) b s o := by
  rw [val_main_v27_apply]
  unfold Cert.Spec.refOut
  refine Finset.sum_congr rfl fun t _ => ?_
  rw [lidx_out, ridx_out, val_main_v26_apply, Ideal.hostDivf_def, exp_apply, den_apply, proj_apply_v]

end Cert.ReferenceIdeal.RefValue

end
-- ==== Proof.PreReal.lean ====
/-
  The precondition makes every input entry a real number: each conjunct says that the absolute value of every entry of one
  input is below `+∞`, and an extended real whose absolute value is below `+∞` is neither infinity.
-/
import proofs.«402570_j23785528885493_3_alg».proof.Pre_finite_inputs
import proofs.«402570_j23785528885493_3_alg».proof.Proof.Gen.Pre_finite_inputs
import Idealize.ShloMosaic.PureOps.Ideal
import Idealize.ShloMosaic.Lib.ReduceAll
import Idealize.ShloMosaic.Lib.ValueIdx

noncomputable section

namespace Cert.PreReal

open Idealize.ShloMosaic Cert.Pre_finite_inputs

/-- The rank-0 shape has exactly one index: an index is a function out of the empty set of axes. -/
instance subsingleton_scalar_idx : Subsingleton S_.Idx := ⟨fun a b => funext fun d => d.elim0⟩

/-- The word `0x7F800000` is `+∞`, read as an extended real. -/
theorem inf_word : Ideal.ofBits .f32 0x7F800000#32 = (⊤ : EReal) := by simp [Ideal.ofBits, Ideal.ieee]

/-- One entry: if `|x| < +∞` then `x` is a real number. `|x|` is `max x (-x)`; at `x = +∞` it is `+∞`, at `x = -∞`
    it is `-(-∞) = +∞`, and neither is below `+∞`. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word] at h'
  have hlt : max (x : EReal) (-(x : EReal)) < ⊤ := by
    by_contra hn
    simp [Ideal.cmp, hn] at h'
  induction x using EReal.rec with
  | bot => simp at hlt
  | coe r => exact ⟨r, rfl⟩
  | top => simp at hlt

/-- One input: the conjunction over all entries of `|a| < +∞` being true makes every entry of `a` a real number. The reduction by `and` over all axes
    is true only if every compared entry is, and the broadcast scalar is `+∞` at every index. -/
theorem all_real {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi (cmpf .olt (Host.absf a) (broadcastInDim s ![] hb (constant S_ .f32 0x7F800000#32)))
      init hr hu j = 1#1) :
    ∀ i, ∃ r : ℝ, a i = (r : EReal) := by
  intro i
  have hi := Host.reduce_andi_all _ init hr hu j e i
  exact real_of_abs_lt_inf (a i) hi

theorem real_of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [fn, fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ _ e0, all_real a1 _ _ _ _ _ e1, all_real a2 _ _ _ _ _ e2, all_real a3 _ _ _ _ _ e3,
    all_real a4 _ _ _ _ _ e4, all_real a5 _ _ _ _ _ e5, all_real a6 _ _ _ _ _ e6⟩

end Cert.PreReal

end
-- ==== Proof.SpecReal.lean ====
/-
  Attention over the reals: what both programs compute when every input is finite.
-/
import Mathlib.Analysis.SpecialFunctions.Exp
import Mathlib.Algebra.BigOperators.Group.Finset.Basic

noncomputable section

namespace Cert.SpecReal

/-- A linear layer on one row: `y[o] = Σ_h x[h]·W[o,h] + b[o]`. -/
def lin (x : Fin 1024 → ℝ) (w : Fin 1024 → Fin 1024 → ℝ) (b : Fin 1024 → ℝ) (o : Fin 1024) : ℝ :=
  (∑ h : Fin 1024, x h * w o h) + b o

/-- The scaled score of query row `s` against key `t` of batch `b`: `⟨Q[b,s], K[b,t]⟩ / 32`. -/
def score (x : Fin 4 → Fin 2048 → Fin 1024 → ℝ) (wq : Fin 1024 → Fin 1024 → ℝ) (bq : Fin 1024 → ℝ)
    (wk : Fin 1024 → Fin 1024 → ℝ) (bk : Fin 1024 → ℝ) (b : Fin 4) (s t : Fin 2048) : ℝ :=
  (∑ h : Fin 1024, lin (x b s) wq bq h * lin (x b t) wk bk h) / 32

/-- Attention: the softmax-weighted average of the value rows, `Σ_t e^{score t}·V[t,o] / Σ_t e^{score t}`. -/
def attn (x : Fin 4 → Fin 2048 → Fin 1024 → ℝ) (wq : Fin 1024 → Fin 1024 → ℝ) (bq : Fin 1024 → ℝ)
    (wk : Fin 1024 → Fin 1024 → ℝ) (bk : Fin 1024 → ℝ) (wv : Fin 1024 → Fin 1024 → ℝ) (bv : Fin 1024 → ℝ)
    (b : Fin 4) (s : Fin 2048) (o : Fin 1024) : ℝ :=
  (∑ t : Fin 2048, Real.exp (score x wq bq wk bk b s t) * lin (x b t) wv bv o)
    / (∑ t : Fin 2048, Real.exp (score x wq bq wk bk b s t))

end Cert.SpecReal

end
-- ==== Proof.SpecKernel.lean ====
/-
  The kernel's tiled running softmax, on finite inputs, is attention over the reals.
-/
import proofs.«402570_j23785528885493_3_alg».proof.Proof.Spec
import proofs.«402570_j23785528885493_3_alg».proof.Proof.SpecReal
import Mathlib.Algebra.BigOperators.Fin
import Mathlib.Algebra.BigOperators.Ring.Finset
import Mathlib.Algebra.Order.BigOperators.Group.Finset
import Mathlib.Tactic.Ring

noncomputable section

namespace Cert.SpecKernel

open Idealize.ShloMosaic

/-! ### Coerced reals are closed under the operations both programs use -/

/-- The folded scale `0x3D000000` is `2⁻⁵ = 1/32`. -/
theorem c32_eq : Ideal.ofBits .f32 0x3D000000#32 = (((1 : ℝ) / 32 : ℝ) : EReal) := by
  simp [Ideal.ofBits, Ideal.ieee, -EReal.coe_mul]; norm_num

/-- A finite sum of coerced reals is the coerced sum. -/
theorem coe_sum {ι : Type} (t : Finset ι) (f : ι → ℝ) :
    (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- A linear layer on real rows is the real linear layer. -/
theorem lin_coe (x : Fin 1024 → ℝ) (w : Fin 1024 → Fin 1024 → ℝ) (b : Fin 1024 → ℝ) (o : Fin 1024) :
    Spec.lin (fun h => ((x h : ℝ) : EReal)) (fun o h => ((w o h : ℝ) : EReal)) (fun o => ((b o : ℝ) : EReal)) o
      = ((SpecReal.lin x w b o : ℝ) : EReal) := by
  simp only [Spec.lin, SpecReal.lin, ← EReal.coe_mul, coe_sum, ← EReal.coe_add]

/-- The layer with weights and bias scaled by `1/32` is the real layer divided by 32. -/
theorem linS_coe (x : Fin 1024 → ℝ) (w : Fin 1024 → Fin 1024 → ℝ) (b : Fin 1024 → ℝ) (o : Fin 1024) :
    Spec.linS (fun h => ((x h : ℝ) : EReal)) (fun o h => ((w o h : ℝ) : EReal)) (fun o => ((b o : ℝ) : EReal)) o
      = ((SpecReal.lin x w b o / 32 : ℝ) : EReal) := by
  simp only [Spec.linS, c32_eq, ← EReal.coe_mul, coe_sum, ← EReal.coe_add]
  congr 1
  simp only [SpecReal.lin]
  rw [add_div, Finset.sum_div]
  congr 1
  · exact Finset.sum_congr rfl (fun h _ => by ring)
  · ring

/-- The kernel's tile score (scaled query row against a key row) is the real scaled score. -/
theorem dotq_coe (x x' : Fin 1024 → ℝ) (w w' : Fin 1024 → Fin 1024 → ℝ) (b b' : Fin 1024 → ℝ) :
    Spec.dotq (Spec.linS (fun h => ((x h : ℝ) : EReal)) (fun o h => ((w o h : ℝ) : EReal)) (fun o => ((b o : ℝ) : EReal)))
        (Spec.lin (fun h => ((x' h : ℝ) : EReal)) (fun o h => ((w' o h : ℝ) : EReal)) (fun o => ((b' o : ℝ) : EReal)))
      = (((∑ h : Fin 1024, SpecReal.lin x w b h * SpecReal.lin x' w' b' h) / 32 : ℝ) : EReal) := by
  simp only [Spec.dotq, linS_coe, lin_coe, ← EReal.coe_mul, coe_sum]
  congr 1
  rw [Finset.sum_div]
  exact Finset.sum_congr rfl (fun h _ => by ring)

/-! ### The running maximum is some real -/

/-- The fold of `max` from `-∞` over a nonempty finite family of reals is a real. -/
theorem fold_max_coe {ι : Type} (t : Finset ι) (σ : ι → ℝ) (ht : t.Nonempty) :
    ∃ ρ : ℝ, t.fold max ⊥ (fun k => ((σ k : ℝ) : EReal)) = (ρ : EReal) := by
  classical
  induction ht using Finset.Nonempty.cons_induction with
  | singleton a => exact ⟨σ a, by rw [Finset.fold_singleton, max_bot_right]⟩
  | cons a t ha ht ih =>
    obtain ⟨ρ, hρ⟩ := ih
    rw [Finset.fold_cons, hρ]
    rcases max_choice ((σ a : ℝ) : EReal) (ρ : EReal) with h | h
    · exact ⟨σ a, h⟩
    · exact ⟨ρ, h⟩

/-! ### One tile of the running softmax on real data -/

/-- Rescaling by `e^{μ-μ'}` moves the reference point of an exponential from `μ` to `μ'`. -/
theorem exp_shift (μ μ' a : ℝ) : Real.exp (μ - μ') * Real.exp (a - μ) = Real.exp (a - μ') := by
  rw [← Real.exp_add]; congr 1; ring

/-- The first tile: from maximum `-∞` and zero sums, the state is the tile's sums at its own maximum. -/
theorem fstep_init (σ : Fin 512 → ℝ) (ν : Fin 512 → Fin 1024 → ℝ) :
    ∃ ρ : ℝ, Spec.fstep Spec.finit (fun k => ((σ k : ℝ) : EReal)) (fun k o => ((ν k o : ℝ) : EReal))
      = ((ρ : EReal), ((∑ k : Fin 512, Real.exp (σ k - ρ) : ℝ) : EReal),
          fun o => ((∑ k : Fin 512, Real.exp (σ k - ρ) * ν k o : ℝ) : EReal)) := by
  obtain ⟨ρ, hρ⟩ := fold_max_coe (Finset.univ : Finset (Fin 512)) σ Finset.univ_nonempty
  refine ⟨ρ, ?_⟩
  simp only [Spec.fstep, Spec.finit, hρ, max_bot_left, EReal.bot_sub, Ideal.exp_bot, zero_mul, zero_add,
    ← EReal.coe_sub, Ideal.exp_coe, ← EReal.coe_mul, coe_sum]

/-- A later tile: from a real state at reference `μ`, the state at the new reference `μ'`. -/
theorem fstep_coe (μ L : ℝ) (A : Fin 1024 → ℝ) (σ : Fin 512 → ℝ) (ν : Fin 512 → Fin 1024 → ℝ) :
    ∃ μ' : ℝ, Spec.fstep ((μ : EReal), (L : EReal), fun o => ((A o : ℝ) : EReal))
        (fun k => ((σ k : ℝ) : EReal)) (fun k o => ((ν k o : ℝ) : EReal))
      = ((μ' : EReal), ((Real.exp (μ - μ') * L + ∑ k : Fin 512, Real.exp (σ k - μ') : ℝ) : EReal),
          fun o => ((Real.exp (μ - μ') * A o + ∑ k : Fin 512, Real.exp (σ k - μ') * ν k o : ℝ) : EReal)) := by
  obtain ⟨ρ, hρ⟩ := fold_max_coe (Finset.univ : Finset (Fin 512)) σ Finset.univ_nonempty
  obtain ⟨μ', hμ'⟩ : ∃ μ' : ℝ, max (μ : EReal) (ρ : EReal) = (μ' : EReal) := by
    rcases max_choice (μ : EReal) (ρ : EReal) with h | h
    · exact ⟨μ, h⟩
    · exact ⟨ρ, h⟩
  refine ⟨μ', ?_⟩
  simp only [Spec.fstep, hρ, hμ', ← EReal.coe_sub, Ideal.exp_coe, ← EReal.coe_mul, coe_sum, ← EReal.coe_add]

/-! ### The invariant of the running softmax -/

/-- The denominator after `n` tiles at reference `μ`: `Σ_{j<n} Σ_k e^{S j k - μ}`. -/
def Lp (S : Fin 4 → Fin 512 → ℝ) (n : ℕ) (h : n ≤ 4) (μ : ℝ) : ℝ :=
  ∑ j : Fin n, ∑ k : Fin 512, Real.exp (S (Fin.castLE h j) k - μ)

/-- The numerator after `n` tiles at reference `μ`: `Σ_{j<n} Σ_k e^{S j k - μ}·V j k o`. -/
def Ap (S : Fin 4 → Fin 512 → ℝ) (V : Fin 4 → Fin 512 → Fin 1024 → ℝ) (n : ℕ) (h : n ≤ 4) (μ : ℝ) (o : Fin 1024) : ℝ :=
  ∑ j : Fin n, ∑ k : Fin 512, Real.exp (S (Fin.castLE h j) k - μ) * V (Fin.castLE h j) k o

theorem frun_succ (s : Fin 4 → Fin 512 → EReal) (v : Fin 4 → Fin 512 → Fin 1024 → EReal) (n : ℕ) (h : n + 1 ≤ 4) :
    Spec.frun s v (n + 1) h = Spec.fstep (Spec.frun s v n (Nat.le_of_succ_le h)) (s ⟨n, h⟩) (v ⟨n, h⟩) := rfl

/-- After at least one tile the state is real: some reference `μ`, and the two partial sums taken at `μ`. -/
theorem frun_inv (S : Fin 4 → Fin 512 → ℝ) (V : Fin 4 → Fin 512 → Fin 1024 → ℝ) :
    ∀ (n : ℕ) (h : n + 1 ≤ 4), ∃ μ : ℝ,
      Spec.frun (fun j k => ((S j k : ℝ) : EReal)) (fun j k o => ((V j k o : ℝ) : EReal)) (n + 1) h
        = ((μ : EReal), ((Lp S (n + 1) h μ : ℝ) : EReal), fun o => ((Ap S V (n + 1) h μ o : ℝ) : EReal)) := by
  intro n
  induction n with
  | zero =>
    intro h
    obtain ⟨ρ, hρ⟩ := fstep_init (S ⟨0, h⟩) (V ⟨0, h⟩)
    refine ⟨ρ, ?_⟩
    rw [frun_succ]
    simp only [Spec.frun]
    rw [hρ]
    simp only [Lp, Ap, Fin.sum_univ_succ (n := 0), Fin.sum_univ_zero, add_zero]
    rfl
  | succ n ih =>
    intro h
    obtain ⟨μ, hμ⟩ := ih (Nat.le_of_succ_le h)
    obtain ⟨μ', hμ'⟩ := fstep_coe μ (Lp S (n + 1) (Nat.le_of_succ_le h) μ) (Ap S V (n + 1) (Nat.le_of_succ_le h) μ)
      (S ⟨n + 1, h⟩) (V ⟨n + 1, h⟩)
    refine ⟨μ', ?_⟩
    rw [frun_succ, hμ, hμ']
    have hL : Real.exp (μ - μ') * Lp S (n + 1) (Nat.le_of_succ_le h) μ + ∑ k : Fin 512, Real.exp (S ⟨n + 1, h⟩ k - μ')
        = Lp S (n + 1 + 1) h μ' := by
      simp only [Lp]
      rw [Fin.sum_univ_castSucc (n := n + 1), Finset.mul_sum]
      simp only [Finset.mul_sum, exp_shift]
      rfl
    have hA : ∀ o, Real.exp (μ - μ') * Ap S V (n + 1) (Nat.le_of_succ_le h) μ o
          + ∑ k : Fin 512, Real.exp (S ⟨n + 1, h⟩ k - μ') * V ⟨n + 1, h⟩ k o
        = Ap S V (n + 1 + 1) h μ' o := by
      intro o
      simp only [Ap]
      rw [Fin.sum_univ_castSucc (n := n + 1), Finset.mul_sum]
      simp only [Finset.mul_sum, ← mul_assoc, exp_shift]
      rfl
    simp only [hL, hA]

/-! ### Re-indexing the 2048 keys by tile -/

/-- The four tiles of 512 partition the 2048 keys. -/
def tileEquiv : Fin 4 × Fin 512 ≃ Fin 2048 where
  toFun p := Spec.tile p.1 p.2
  invFun t := (⟨t.val / 512, by have := t.isLt; omega⟩, ⟨t.val % 512, by omega⟩)
  left_inv := by
    rintro ⟨j, k⟩
    have hj := j.isLt
    have hk := k.isLt
    apply Prod.ext <;> apply Fin.ext <;> simp only [Spec.tile] <;> omega
  right_inv := by
    intro t
    apply Fin.ext
    simp only [Spec.tile]
    omega

theorem sum_tile (f : Fin 2048 → ℝ) :
    ∑ j : Fin 4, ∑ k : Fin 512, f (Spec.tile j k) = ∑ t : Fin 2048, f t := by
  rw [← Fintype.sum_prod_type']
  exact Fintype.sum_equiv tileEquiv _ _ (fun _ => rfl)

/-! ### The quotient does not depend on the reference -/

/-- Numerator and denominator taken at a common reference `μ` have the quotient they have at reference `0`. -/
theorem quot_shift (S W : Fin 4 → Fin 512 → ℝ) (μ : ℝ) :
    (∑ j : Fin 4, ∑ k : Fin 512, Real.exp (S j k - μ) * W j k) / (∑ j : Fin 4, ∑ k : Fin 512, Real.exp (S j k - μ))
      = (∑ j : Fin 4, ∑ k : Fin 512, Real.exp (S j k) * W j k) / (∑ j : Fin 4, ∑ k : Fin 512, Real.exp (S j k)) := by
  have h1 : ∀ j k, Real.exp (S j k - μ) = Real.exp (S j k) * (Real.exp μ)⁻¹ := by
    intro j k; rw [Real.exp_sub, div_eq_mul_inv]
  simp only [h1, mul_right_comm _ (Real.exp μ)⁻¹, ← Finset.sum_mul]
  exact mul_div_mul_right _ _ (inv_ne_zero (Real.exp_pos μ).ne')

/-- The kernel's result on real inputs is attention over the reals. -/
theorem kernelOut_eq (x : Fin 4 → Fin 2048 → Fin 1024 → ℝ) (wq : Fin 1024 → Fin 1024 → ℝ) (bq : Fin 1024 → ℝ)
    (wk : Fin 1024 → Fin 1024 → ℝ) (bk : Fin 1024 → ℝ) (wv : Fin 1024 → Fin 1024 → ℝ) (bv : Fin 1024 → ℝ)
    (b : Fin 4) (s : Fin 2048) (o : Fin 1024) :
    Cert.Spec.kernelOut (fun b s h => ((x b s h : ℝ) : EReal)) (fun o h => ((wq o h : ℝ) : EReal)) (fun o => ((bq o : ℝ) : EReal))
        (fun o h => ((wk o h : ℝ) : EReal)) (fun o => ((bk o : ℝ) : EReal)) (fun o h => ((wv o h : ℝ) : EReal)) (fun o => ((bv o : ℝ) : EReal)) b s o
      = ((Cert.SpecReal.attn x wq bq wk bk wv bv b s o : ℝ) : EReal) := by
  obtain ⟨μ, hμ⟩ := frun_inv (fun j k => SpecReal.score x wq bq wk bk b s (Spec.tile j k))
    (fun j k o' => SpecReal.lin (x b (Spec.tile j k)) wv bv o') 3 (Nat.le_refl 4)
  simp only [Spec.kernelOut, dotq_coe, lin_coe]
  change Spec.fout (Spec.frun (fun j k => ((SpecReal.score x wq bq wk bk b s (Spec.tile j k) : ℝ) : EReal))
    (fun j k o' => ((SpecReal.lin (x b (Spec.tile j k)) wv bv o' : ℝ) : EReal)) (3 + 1) (Nat.le_refl 4)) o = _
  rw [hμ]
  have hLpos : 0 < Lp (fun j k => SpecReal.score x wq bq wk bk b s (Spec.tile j k)) (3 + 1) (Nat.le_refl 4) μ :=
    Finset.sum_pos (fun j _ => Finset.sum_pos (fun k _ => Real.exp_pos _) Finset.univ_nonempty) Finset.univ_nonempty
  simp only [Spec.fout]
  rw [Ideal.div_coe hLpos.ne', ← EReal.coe_mul, mul_one_div]
  congr 1
  refine Eq.trans (quot_shift (fun j k => SpecReal.score x wq bq wk bk b s (Spec.tile j k))
    (fun j k => SpecReal.lin (x b (Spec.tile j k)) wv bv o) μ) ?_
  rw [sum_tile (fun t => Real.exp (SpecReal.score x wq bq wk bk b s t) * SpecReal.lin (x b t) wv bv o),
    sum_tile (fun t => Real.exp (SpecReal.score x wq bq wk bk b s t))]
  rfl

end Cert.SpecKernel

end
-- ==== Proof.SpecRef.lean ====
/-
  The reference's softmax with the row maximum subtracted, on finite inputs, is attention over the reals.

  Once every input is a real number, every intermediate value of the reference is a real number too: the linear layers and
  the scores are finite sums of products, the divisor `sqrt 1024` is the real `32`, the row maximum of 2048 reals is a real
  `M`, and the denominator `Σ_t exp (σ_t - M)` is a positive real.  So the extended-real program can be rewritten, step by
  step, as the coercion of a real expression, and over the reals the shift by `M` cancels between numerator and denominator:
  `exp (σ_t - M) = exp σ_t · exp (-M)`.
-/
import proofs.«402570_j23785528885493_3_alg».proof.Proof.Spec
import proofs.«402570_j23785528885493_3_alg».proof.Proof.SpecReal
import Mathlib.Analysis.Real.Sqrt

noncomputable section

namespace Cert.SpecRef

open Idealize.ShloMosaic

/-- The f32 word `0x44800000` denotes the real `1024`. -/
theorem c1024_eq : Cert.Spec.c1024 = ((1024 : ℝ) : EReal) := by
  simp [Cert.Spec.c1024, Ideal.ofBits, Ideal.ieee, -EReal.coe_mul]; norm_num

/-- The reference's divisor: `sqrt 1024 = 32`. -/
theorem sqrt_c1024 : Ideal.sqrt Cert.Spec.c1024 = ((32 : ℝ) : EReal) := by
  rw [c1024_eq, Ideal.sqrt_coe, if_neg (by norm_num)]
  congr 1
  rw [show (1024 : ℝ) = 32 ^ 2 by norm_num]
  exact Real.sqrt_sq (by norm_num)

/-- A finite sum of coerced reals is the coercion of the real sum. -/
theorem coe_sum {n : Nat} (s : Finset (Fin n)) (f : Fin n → ℝ) :
    (∑ i ∈ s, ((f i : ℝ) : EReal)) = ((∑ i ∈ s, f i : ℝ) : EReal) := by
  induction s using Finset.induction_on with
  | empty => simp
  | insert a s ha ih => rw [Finset.sum_insert ha, Finset.sum_insert ha, ih, EReal.coe_add]

/-- The coercion commutes with the maximum of two reals. -/
theorem coe_max (a b : ℝ) : max ((a : ℝ) : EReal) ((b : ℝ) : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A linear layer on a real row is the real linear layer. -/
theorem lin_coe (x : Fin 1024 → ℝ) (w : Fin 1024 → Fin 1024 → ℝ) (b : Fin 1024 → ℝ) (o : Fin 1024) :
    Cert.Spec.lin (fun h => ((x h : ℝ) : EReal)) (fun o h => ((w o h : ℝ) : EReal)) (fun o => ((b o : ℝ) : EReal)) o
      = ((Cert.SpecReal.lin x w b o : ℝ) : EReal) := by
  unfold Cert.Spec.lin Cert.SpecReal.lin
  rw [EReal.coe_add, ← coe_sum]
  exact congrArg (fun z => z + ((b o : ℝ) : EReal)) (Finset.sum_congr rfl (fun h _ => (EReal.coe_mul _ _).symm))

/-- The reference's scaled score on real inputs is the real score `⟨Q, K⟩ / 32`. -/
theorem refScore_coe (x : Fin 4 → Fin 2048 → Fin 1024 → ℝ) (wq : Fin 1024 → Fin 1024 → ℝ) (bq : Fin 1024 → ℝ)
    (wk : Fin 1024 → Fin 1024 → ℝ) (bk : Fin 1024 → ℝ) (b : Fin 4) (s t : Fin 2048) :
    Cert.Spec.refScore (fun b s h => ((x b s h : ℝ) : EReal)) (fun o h => ((wq o h : ℝ) : EReal)) (fun o => ((bq o : ℝ) : EReal))
        (fun o h => ((wk o h : ℝ) : EReal)) (fun o => ((bk o : ℝ) : EReal)) b s t
      = ((Cert.SpecReal.score x wq bq wk bk b s t : ℝ) : EReal) := by
  unfold Cert.Spec.refScore Cert.Spec.dotq Cert.SpecReal.score
  rw [sqrt_c1024, Ideal.div_coe (by norm_num)]
  have h1 : ∀ h : Fin 1024,
      Cert.Spec.lin (fun h => ((x b s h : ℝ) : EReal)) (fun o h => ((wq o h : ℝ) : EReal)) (fun o => ((bq o : ℝ) : EReal)) h
        * Cert.Spec.lin (fun h => ((x b t h : ℝ) : EReal)) (fun o h => ((wk o h : ℝ) : EReal)) (fun o => ((bk o : ℝ) : EReal)) h
      = ((Cert.SpecReal.lin (x b s) wq bq h * Cert.SpecReal.lin (x b t) wk bk h : ℝ) : EReal) := by
    intro h
    rw [lin_coe, lin_coe, EReal.coe_mul]
  rw [Finset.sum_congr rfl (fun h _ => h1 h), coe_sum, ← EReal.coe_mul, mul_one_div]

/-- The running maximum of finitely many (at least one) reals, started at `-∞`, is a real. -/
theorem fold_max_coe {n : Nat} (s : Finset (Fin n)) (hs : s.Nonempty) (f : Fin n → ℝ) :
    ∃ M : ℝ, s.fold max ⊥ (fun t => ((f t : ℝ) : EReal)) = ((M : ℝ) : EReal) := by
  induction hs using Finset.Nonempty.cons_induction with
  | singleton a => exact ⟨f a, by rw [Finset.fold_singleton, max_bot_right]⟩
  | cons a s ha hs ih =>
    obtain ⟨M, hM⟩ := ih
    exact ⟨max (f a) M, by rw [Finset.fold_cons, hM, coe_max]⟩

/-- The reference's row maximum of 2048 reals is a real. -/
theorem refMax_coe (σ : Fin 2048 → ℝ) : ∃ M : ℝ, Cert.Spec.refMax (fun t => ((σ t : ℝ) : EReal)) = ((M : ℝ) : EReal) := by
  obtain ⟨M, hM⟩ := fold_max_coe (Finset.univ : Finset (Fin 2048)) Finset.univ_nonempty σ
  exact ⟨M, by rw [Cert.Spec.refMax, hM, max_bot_left]⟩

/-- Over the reals the shift cancels: the softmax weights `exp (σ_t - M) / Σ exp (σ_t' - M)` average `v` to
    `Σ exp σ_t · v_t / Σ exp σ_t`. -/
theorem shift_real (σ v : Fin 2048 → ℝ) (M : ℝ) :
    (∑ t : Fin 2048, Real.exp (σ t - M) * (1 / ∑ t' : Fin 2048, Real.exp (σ t' - M)) * v t)
      = (∑ t : Fin 2048, Real.exp (σ t) * v t) / (∑ t : Fin 2048, Real.exp (σ t)) := by
  have hc : 0 < Real.exp (-M) := Real.exp_pos _
  have hZ : 0 < ∑ t : Fin 2048, Real.exp (σ t) := Finset.sum_pos (fun t _ => Real.exp_pos _) Finset.univ_nonempty
  have h1 : ∀ t : Fin 2048, Real.exp (σ t - M) = Real.exp (σ t) * Real.exp (-M) := by
    intro t; rw [sub_eq_add_neg, Real.exp_add]
  have hZ' : (∑ t' : Fin 2048, Real.exp (σ t' - M)) = (∑ t : Fin 2048, Real.exp (σ t)) * Real.exp (-M) := by
    rw [Finset.sum_mul]; exact Finset.sum_congr rfl (fun t _ => h1 t)
  rw [hZ', Finset.sum_div]
  refine Finset.sum_congr rfl (fun t _ => ?_)
  rw [h1 t]
  field_simp

theorem refOut_eq (x : Fin 4 → Fin 2048 → Fin 1024 → ℝ) (wq : Fin 1024 → Fin 1024 → ℝ) (bq : Fin 1024 → ℝ)
    (wk : Fin 1024 → Fin 1024 → ℝ) (bk : Fin 1024 → ℝ) (wv : Fin 1024 → Fin 1024 → ℝ) (bv : Fin 1024 → ℝ)
    (b : Fin 4) (s : Fin 2048) (o : Fin 1024) :
    Cert.Spec.refOut (fun b s h => ((x b s h : ℝ) : EReal)) (fun o h => ((wq o h : ℝ) : EReal)) (fun o => ((bq o : ℝ) : EReal))
        (fun o h => ((wk o h : ℝ) : EReal)) (fun o => ((bk o : ℝ) : EReal)) (fun o h => ((wv o h : ℝ) : EReal)) (fun o => ((bv o : ℝ) : EReal)) b s o
      = ((Cert.SpecReal.attn x wq bq wk bk wv bv b s o : ℝ) : EReal) := by
  unfold Cert.Spec.refOut
  have hS : Cert.Spec.refScore (fun b s h => ((x b s h : ℝ) : EReal)) (fun o h => ((wq o h : ℝ) : EReal)) (fun o => ((bq o : ℝ) : EReal))
      (fun o h => ((wk o h : ℝ) : EReal)) (fun o => ((bk o : ℝ) : EReal)) b s
      = fun t => ((Cert.SpecReal.score x wq bq wk bk b s t : ℝ) : EReal) :=
    funext (fun t => refScore_coe x wq bq wk bk b s t)
  rw [hS]
  obtain ⟨M, hM⟩ := refMax_coe (Cert.SpecReal.score x wq bq wk bk b s)
  rw [hM]
  have hE : ∀ t : Fin 2048, Ideal.exp (((Cert.SpecReal.score x wq bq wk bk b s t : ℝ) : EReal) - ((M : ℝ) : EReal))
      = ((Real.exp (Cert.SpecReal.score x wq bq wk bk b s t - M) : ℝ) : EReal) := by
    intro t; rw [← EReal.coe_sub, Ideal.exp_coe]
  have hZ : (0 : EReal) + ∑ t' : Fin 2048, Ideal.exp (((Cert.SpecReal.score x wq bq wk bk b s t' : ℝ) : EReal) - ((M : ℝ) : EReal))
      = ((∑ t' : Fin 2048, Real.exp (Cert.SpecReal.score x wq bq wk bk b s t' - M) : ℝ) : EReal) := by
    rw [zero_add, Finset.sum_congr rfl (fun t _ => hE t), coe_sum]
  have hZpos : 0 < ∑ t' : Fin 2048, Real.exp (Cert.SpecReal.score x wq bq wk bk b s t' - M) :=
    Finset.sum_pos (fun t _ => Real.exp_pos _) Finset.univ_nonempty
  rw [hZ]
  have hV : ∀ t : Fin 2048,
      Cert.Spec.lin ((fun b s h => ((x b s h : ℝ) : EReal)) b t) (fun o h => ((wv o h : ℝ) : EReal)) (fun o => ((bv o : ℝ) : EReal)) o
        = ((Cert.SpecReal.lin (x b t) wv bv o : ℝ) : EReal) := fun t => lin_coe (x b t) wv bv o
  have hterm : ∀ t : Fin 2048,
      Ideal.div (Ideal.exp (((Cert.SpecReal.score x wq bq wk bk b s t : ℝ) : EReal) - ((M : ℝ) : EReal)))
          ((∑ t' : Fin 2048, Real.exp (Cert.SpecReal.score x wq bq wk bk b s t' - M) : ℝ) : EReal)
        * Cert.Spec.lin ((fun b s h => ((x b s h : ℝ) : EReal)) b t) (fun o h => ((wv o h : ℝ) : EReal)) (fun o => ((bv o : ℝ) : EReal)) o
      = ((Real.exp (Cert.SpecReal.score x wq bq wk bk b s t - M)
            * (1 / ∑ t' : Fin 2048, Real.exp (Cert.SpecReal.score x wq bq wk bk b s t' - M))
            * Cert.SpecReal.lin (x b t) wv bv o : ℝ) : EReal) := by
    intro t
    rw [Ideal.div_coe hZpos.ne', hE t, hV t, ← EReal.coe_mul, ← EReal.coe_mul]
  rw [Finset.sum_congr rfl (fun t _ => hterm t), coe_sum, shift_real]
  rfl

end Cert.SpecRef

end
-- ==== Proof.lean ====
/-
  Single-head attention, a tiled kernel against its jnp reference, on the extended reals.

  The kernel projects the 8192 input rows once with the three weight matrices laid side by side (the factor `1/32 = 1/sqrt 1024`
  folded into the query weights and bias), then for each batch and block of 1024 query rows walks the 2048 keys in four tiles,
  keeping per row a running maximum, a running denominator and a running numerator, each rescaled by `exp (m_old - m_new)` when
  the maximum moves, and divides at the last tile. The reference forms all scores, divides them by `sqrt 1024`, subtracts the row
  maximum, exponentiates, normalises and contracts with the values.

  Under the precondition every input entry is a real number, so every intermediate value of both programs is a real number, and
  both results are the same real: `Σ_t e^{σ_t}·V[t,o] / Σ_t e^{σ_t}` with `σ_t = ⟨Q[s], K[t]⟩ / 32`. The law that joins them is
  `e^{a-b}·e^{c-a} = e^{c-b}` (the rescaling telescopes) and the invariance of the softmax quotient under a common shift of the
  scores; it needs finiteness, which is where the precondition is used.

  The frames: each program runs to the end and leaves its arguments unchanged. For the kernel program this is the run of its
  two regions between its host stretches (the flash region carries its three scratch buffers from grid point to grid point); for
  the reference it is its run with the result dropped. The idealization rewrote nothing, so `preserves` is trivial.
-/
import proofs.«402570_j23785528885493_3_alg».proof.Defs
import proofs.«402570_j23785528885493_3_alg».proof.Proof.Gen.Kernel
import proofs.«402570_j23785528885493_3_alg».proof.Proof.Gen.KernelIdeal
import proofs.«402570_j23785528885493_3_alg».proof.Proof.Gen.ReferenceIdeal
import proofs.«402570_j23785528885493_3_alg».proof.Proof.Gen.Pre_finite_inputs
import proofs.«402570_j23785528885493_3_alg».proof.Proof.Gen.ReferenceIdeal.Run
import proofs.«402570_j23785528885493_3_alg».proof.Proof.Gen.ReferenceIdeal.Read
import proofs.«402570_j23785528885493_3_alg».proof.Proof.K.Run
import proofs.«402570_j23785528885493_3_alg».proof.Proof.KI.Run
import proofs.«402570_j23785528885493_3_alg».proof.Proof.KI.Value
import proofs.«402570_j23785528885493_3_alg».proof.Proof.RefValue
import proofs.«402570_j23785528885493_3_alg».proof.Proof.PreReal
import proofs.«402570_j23785528885493_3_alg».proof.Proof.SpecKernel
import proofs.«402570_j23785528885493_3_alg».proof.Proof.SpecRef
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both results at an index are attention over the reals of the (finite) argument arrays. -/
theorem algebraic : Cert.algebraic_KernelIdeal_ReferenceIdeal := by
  intro m ρ m' ρ' hpre hagree
  refine ⟨fun c => (Cert.KernelIdeal.Hand.dat1 (Cert.KernelIdeal.Hand.V3 m ρ) c).arrAt 3 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2.1,
    (hagree c).2.2.2.2.1, (hagree c).2.2.2.2.2.1, (hagree c).2.2.2.2.2.2]
  obtain ⟨h0, h1, h2, h3, h4, h5, h6⟩ := Cert.PreReal.real_of_pre _ _ _ _ _ _ _ (hpre c)
  choose x0 hx0 using h0
  choose x1 hx1 using h1
  choose x2 hx2 using h2
  choose x3 hx3 using h3
  choose x4 hx4 using h4
  choose x5 hx5 using h5
  choose x6 hx6 using h6
  funext i
  obtain ⟨b, s, o, rfl⟩ : ∃ (b : Fin 4) (s : Fin 2048) (o : Fin 1024), i = ix3 b s o := ⟨i 0, i 1, i 2, eq_ix3 i⟩
  refine (Cert.ReferenceIdeal.RefValue.ref_apply _ _ _ _ _ _ _ b s o).trans ?_
  refine Eq.trans ?_ (Cert.KernelIdeal.Hand.kernel_value m ρ c b s o).symm
  have e0 : (fun (b : Fin 4) (s : Fin 2048) (h : Fin 1024) => (m ((c.tc : Thread Cert.KernelIdeal.nD Cert.KernelIdeal.τ).loc Cert.KernelIdeal.main_arg0) : Cert.KernelIdeal.S4x2048x1024.Idx → EReal) (ix3 b s h))
      = fun b s h => ((x0 (ix3 b s h) : ℝ) : EReal) := by funext b s h; exact hx0 _
  have e1 : (fun (o h : Fin 1024) => (m ((c.tc : Thread Cert.KernelIdeal.nD Cert.KernelIdeal.τ).loc Cert.KernelIdeal.main_arg1) : Cert.KernelIdeal.S1024x1024.Idx → EReal) (ix2 o h))
      = fun o h => ((x1 (ix2 o h) : ℝ) : EReal) := by funext o h; exact hx1 _
  have e2 : (fun (o : Fin 1024) => (m ((c.tc : Thread Cert.KernelIdeal.nD Cert.KernelIdeal.τ).loc Cert.KernelIdeal.main_arg2) : Cert.KernelIdeal.S1024.Idx → EReal) (ix1 o))
      = fun o => ((x2 (ix1 o) : ℝ) : EReal) := by funext o; exact hx2 _
  have e3 : (fun (o h : Fin 1024) => (m ((c.tc : Thread Cert.KernelIdeal.nD Cert.KernelIdeal.τ).loc Cert.KernelIdeal.main_arg3) : Cert.KernelIdeal.S1024x1024.Idx → EReal) (ix2 o h))
      = fun o h => ((x3 (ix2 o h) : ℝ) : EReal) := by funext o h; exact hx3 _
  have e4 : (fun (o : Fin 1024) => (m ((c.tc : Thread Cert.KernelIdeal.nD Cert.KernelIdeal.τ).loc Cert.KernelIdeal.main_arg4) : Cert.KernelIdeal.S1024.Idx → EReal) (ix1 o))
      = fun o => ((x4 (ix1 o) : ℝ) : EReal) := by funext o; exact hx4 _
  have e5 : (fun (o h : Fin 1024) => (m ((c.tc : Thread Cert.KernelIdeal.nD Cert.KernelIdeal.τ).loc Cert.KernelIdeal.main_arg5) : Cert.KernelIdeal.S1024x1024.Idx → EReal) (ix2 o h))
      = fun o h => ((x5 (ix2 o h) : ℝ) : EReal) := by funext o h; exact hx5 _
  have e6 : (fun (o : Fin 1024) => (m ((c.tc : Thread Cert.KernelIdeal.nD Cert.KernelIdeal.τ).loc Cert.KernelIdeal.main_arg6) : Cert.KernelIdeal.S1024.Idx → EReal) (ix1 o))
      = fun o => ((x6 (ix1 o) : ℝ) : EReal) := by funext o; exact hx6 _
  unfold Cert.KernelIdeal.Hand.aX Cert.KernelIdeal.Hand.aWq Cert.KernelIdeal.Hand.abq Cert.KernelIdeal.Hand.aWk
    Cert.KernelIdeal.Hand.abk Cert.KernelIdeal.Hand.aWv Cert.KernelIdeal.Hand.abv
  rw [e0, e1, e2, e3, e4, e5, e6]
  exact (Cert.SpecRef.refOut_eq (fun b s h => x0 (ix3 b s h)) (fun o h => x1 (ix2 o h)) (fun o => x2 (ix1 o))
      (fun o h => x3 (ix2 o h)) (fun o => x4 (ix1 o)) (fun o h => x5 (ix2 o h)) (fun o => x6 (ix1 o)) b s o).trans
    (Cert.SpecKernel.kernelOut_eq (fun b s h => x0 (ix3 b s h)) (fun o h => x1 (ix2 o h)) (fun o => x2 (ix1 o))
      (fun o h => x3 (ix2 o h)) (fun o => x4 (ix1 o)) (fun o h => x5 (ix2 o h)) (fun o => x6 (ix1 o)) b s o).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
